-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg7 : FVec F S64x64 .f32) (main_arg8 : FVec F S64 .f32) (main_arg9 : FVec F S64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S200000 32) (main_arg3 : IVec S200000 32) (main_arg4 : FVec F S64x128 .f32) (main_arg5 : FVec F S64 .f32) (main_arg6 : FVec F S64x128 .f32) (main_arg7 : FVec F S64x64 .f32) (main_arg8 : FVec F S64 .f32) (main_arg9 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S200704 : Shape := ⟨1, ![200704]⟩
abbrev S200704x1 : Shape := ⟨2, ![200704, 1]⟩
abbrev S200704x64 : Shape := ⟨2, ![200704, 64]⟩
abbrev S4096x64 : Shape := ⟨2, ![4096, 64]⟩
abbrev S4096x1 : Shape := ⟨2, ![4096, 1]⟩
abbrev S4096 : Shape := ⟨1, ![4096]⟩
abbrev S200000x1 : Shape := ⟨2, ![200000, 1]⟩

abbrev nBuf : Space → Nat
  | .hbm => 92
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S200000, .i32⟩
  | .hbm, ⟨3, _⟩ => ⟨S200000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x64, .f32⟩
  | .hbm, ⟨43, _⟩ => ⟨S128x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S64x64, .f32⟩
  | .hbm, ⟨62, _⟩ => ⟨S64x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S_, .i32⟩
  | .hbm, ⟨67, _⟩ => ⟨S200704, .i32⟩
  | .hbm, ⟨68, _⟩ => ⟨S_, .i32⟩
  | .hbm, ⟨69, _⟩ => ⟨S_, .i32⟩
  | .hbm, ⟨70, _⟩ => ⟨S200704, .i32⟩
  | .hbm, ⟨71, _⟩ => ⟨S_, .i32⟩
  | .hbm, ⟨72, _⟩ => ⟨S200704, .i32⟩
  | .hbm, ⟨73, _⟩ => ⟨S200704, .i1⟩
  | .hbm, ⟨74, _⟩ => ⟨S_, .i32⟩
  | .hbm, ⟨75, _⟩ => ⟨S200704, .i32⟩
  | .hbm, ⟨76, _⟩ => ⟨S200704, .i32⟩
  | .hbm, ⟨77, _⟩ => ⟨S200704, .i32⟩
  | .hbm, ⟨78, _⟩ => ⟨S200704x1, .i32⟩
  | .hbm, ⟨79, _⟩ => ⟨S200704x64, .f32⟩
  | .hbm, ⟨80, _⟩ => ⟨S_, .i32⟩
  | .hbm, ⟨81, _⟩ => ⟨S200704, .i32⟩
  | .hbm, ⟨82, _⟩ => ⟨S200704, .i1⟩
  | .hbm, ⟨83, _⟩ => ⟨S_, .i32⟩
  | .hbm, ⟨84, _⟩ => ⟨S200704, .i32⟩
  | .hbm, ⟨85, _⟩ => ⟨S200704, .i32⟩
  | .hbm, ⟨86, _⟩ => ⟨S200704, .i32⟩
  | .hbm, ⟨87, _⟩ => ⟨S200704x1, .i32⟩
  | .hbm, ⟨88, _⟩ => ⟨S200704x64, .f32⟩
  | .hbm, ⟨89, _⟩ => ⟨S200704x1, .f32⟩
  | .hbm, ⟨90, _⟩ => ⟨S200000x1, .f32⟩
  | .hbm, ⟨91, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x1, .f32⟩
  | .local _ .vmem, ⟨23, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_call0_v0 : Ref sig .tc := ⟨.hbm, 66, rfl⟩
abbrev main_v45 : Ref sig .tc := ⟨.hbm, 67, rfl⟩
abbrev main_c_9 : Ref sig .tc := ⟨.hbm, 68, rfl⟩
abbrev main_call1_v0 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  pads_S200000_S200704_07040 : S200000.Pads (![0] : Fin 1 → Nat) ![704] ![0] S200704
  h_S_ : 0 < S_.numel
  bcast_S_S200704 : S_.BroadcastsInDim S200704 (![] : Fin 0 → Fin S200704.rank)
  bcast_S200704_S200704x1_0 : S200704.BroadcastsInDim S200704x1 (![0] : Fin 1 → Fin S200704x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  slices_S200704x1_S200000x1_0_0 : S200704x1.Slices ![0, 0] S200000x1
  shapeCasts_S200000x1_S200000 : S200000x1.ShapeCasts S200000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S100000x64_S200704x1_S200704x64_1_0_n_n_0_1_164_wf : GatherDims.WF S100000x64 S200704x1 S200704x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S200704x64.size a
  hwx2_0 : ∀ i : grid2.Coords, EltTy.bits .f32 = 32 ∨ (Rect.block (s := S200704x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S200704x64.size a
  hwx2_1 : ∀ i : grid2.Coords, EltTy.bits .f32 = 32 ∨ (Rect.block (s := S200704x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S200704x1.size a
  hwx2_2 : ∀ i : grid2.Coords, EltTy.bits .f32 = 32 ∨ (Rect.block (s := S200704x1) S4096x1.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S200704x1_S200704x64_1_0_n_n_0_1_164 : GatherDims S100000x64 S200704x1 S200704x64 where
  offsetDims := [1]
  collapsedSliceDims := [0]
  operandBatchingDims := []
  startIndicesBatchingDims := []
  startIndexMap := [0]
  indexVectorDim := 1
  sliceSizes := ![1, 64]
  wf := gather_S100000x64_S200704x1_S200704x64_1_0_n_n_0_1_164_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4096x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S200000 : Shape := ⟨1, ![200000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S200000x1 : Shape := ⟨2, ![200000, 1]⟩
abbrev S200000x64 : Shape := ⟨2, ![200000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S200000, .i32⟩
  | .hbm, ⟨3, _⟩ => ⟨S200000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S128x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S200000x64, .f32⟩
  | .hbm, ⟨103, _⟩ => ⟨S_, .f32⟩
  | .hbm, ⟨104, _⟩ => ⟨S200000, .f32⟩
  | .hbm, ⟨105, _⟩ => ⟨S200000, .f32⟩
  | .hbm, ⟨106, _⟩ => ⟨S200000, .f32⟩
  | .hbm, ⟨107, _⟩ => ⟨S_, .f32⟩
  | .hbm, ⟨108, _⟩ => ⟨S200000, .f32⟩
  | .hbm, ⟨109, _⟩ => ⟨S200000, .f32⟩
  | .hbm, ⟨110, _⟩ => ⟨S_, .f32⟩
  | .hbm, ⟨111, _⟩ => ⟨S200000, .f32⟩
  | .hbm, ⟨112, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.Spec.lean ====
/-
  The two whole-array functions the three kernel regions compute, as functions of whole arrays over the extended reals.

  `layer agg h wlT wrT b`: one mean-aggregation graph-convolution layer after the aggregation. Row `n`, column `o` is
  `max (Σ_k agg[n,k]·wlT[k,o] + Σ_k h[n,k]·wrT[k,o] + b[0,o]) 0`: the neighbour path's product, the root path's product,
  the bias row, then the rectifier.

  `decode zs zd`: row `q` is the logistic function of the inner product of row `q` of `zs` and row `q` of `zd`.
-/
import Idealize.ShloMosaic.Lib.ValueIdx
import Idealize.ShloMosaic.PureOps.Ideal

noncomputable section

open scoped BigOperators

namespace Cert.Spec

open Idealize.ShloMosaic Idealize.ShloMosaic.ValueIdx

/-- The first coordinate of a rank-2 index, as a number below the first extent. -/
abbrev c0 {n0 n1 : Nat} (i : (⟨2, ![n0, n1]⟩ : Shape).Idx) : Fin n0 := ⟨(i 0).val, idx2_lt0 i⟩
/-- The second coordinate of a rank-2 index, as a number below the second extent. -/
abbrev c1 {n0 n1 : Nat} (i : (⟨2, ![n0, n1]⟩ : Shape).Idx) : Fin n1 := ⟨(i 1).val, idx2_lt1 i⟩

/-- One layer after the aggregation: both matrix products, the bias row, the rectifier. -/
def layer {N I O : Nat} (agg h : (⟨2, ![N, I]⟩ : Shape).Idx → EReal) (wlT wrT : (⟨2, ![I, O]⟩ : Shape).Idx → EReal)
    (b : (⟨2, ![1, O]⟩ : Shape).Idx → EReal) : (⟨2, ![N, O]⟩ : Shape).Idx → EReal :=
  fun i => max (((∑ k : Fin I, agg (ix2 (c0 i) k) * wlT (ix2 k (c1 i))) + ∑ k : Fin I, h (ix2 (c0 i) k) * wrT (ix2 k (c1 i)))
    + b (ix2 (0 : Fin 1) (c1 i))) 0

/-- The link score of each query: the logistic function of the inner product of the two gathered rows. -/
def decode {Q D : Nat} (zs zd : (⟨2, ![Q, D]⟩ : Shape).Idx → EReal) : (⟨2, ![Q, 1]⟩ : Shape).Idx → EReal :=
  fun i => Ideal.logistic (∑ k : Fin D, zs (ix2 (c0 i) k) * zd (ix2 (c0 i) k))

/-- A maximum with one is not zero. -/
theorem max_one_ne_zero (a : EReal) : max a 1 ≠ 0 := by
  intro h
  have h1 : (1 : EReal) ≤ max a 1 := le_max_right a 1
  rw [h] at h1
  exact absurd h1 (by norm_num)

/-- Multiplying by the reciprocal of a nonzero divisor is dividing by it, on every extended real. -/
theorem mul_one_div (a c : EReal) (hc : c ≠ 0) : a * Ideal.div 1 c = Ideal.div a c := by
  rw [Ideal.div, Ideal.div, if_neg hc, if_neg hc, one_mul]

end Cert.Spec

end
-- ==== Proof.KStages.lean ====
/-
  The host side of the kernel's program, stage by stage, as functions of the argument arrays over the extended reals:
  which node each edge leaves and enters, the reciprocal of each node's in-degree (at least one), the mean of the
  neighbours' rows, the transposed weights, the bias as a row, the query indices padded to whole blocks, the gathered
  rows, and the cut back to the queries asked for. Each is the composition of the printed host operations, so that the
  program's run states its buffers by these names.
-/
import proofs.«157437_j90452011254251_1_alg».proof.Proof.Gen.KernelIdeal
import proofs.«157437_j90452011254251_1_alg».proof.Proof.Spec

noncomputable section

namespace Cert.KernelIdeal.Stage

open Cert.KernelIdeal Cert.KernelIdeal.Gen Idealize.ShloMosaic

/-- The node each edge leaves: row 0 of the edge list. -/
def esrc (e : IVec S2x1600000 32) : IVec S1600000 32 :=
  shapeCast _ (extractStridedSlice S1x1600000 ![0, 0] e slices_S2x1600000_S1x1600000_0_0) shapeCasts_S1x1600000_S1600000
/-- The node each edge enters: row 1 of the edge list. -/
def edst (e : IVec S2x1600000 32) : IVec S1600000 32 :=
  shapeCast _ (extractStridedSlice S1x1600000 ![1, 0] e slices_S2x1600000_S1x1600000_1_0) shapeCasts_S1x1600000_S1600000

/-- A negative node number counts from the end (once), as a column of start indices. -/
def wrapE (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The edges' targets as a column of scatter indices. -/
def dstCol (e : IVec S2x1600000 32) : IVec S1600000x1 32 :=
  broadcastInDim S1600000x1 ![0] bcast_S1600000_S1600000x1_0 (edst e)

/-- How many edges enter each node: ones scattered onto zeros. -/
def cnt (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- One over the in-degree, the in-degree taken at least one, as a column. -/
def invCnt (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (cnt e) (broadcastInDim S100000 ![] bcast_S_S100000 (constant (F := Ideal) S_ .f32 0x3F800000#32))))

/-- The mean of the rows of `x` over each node's incoming edges (width 128): gather, scatter-add, times the reciprocal. -/
def agg128 (x : FVec Ideal S100000x128 .f32) (e : IVec S2x1600000 32) : FVec Ideal S100000x128 .f32 :=
  mulf
    (Host.scatterAdd scatter_S100000x128_S1600000x1_S1600000x128_1_0_0_1
      (broadcastInDim S100000x128 ![] bcast_S_S100000x128 (constant (F := Ideal) S_ .f32 0x00000000#32)) (dstCol e)
      (Host.gather gather_S100000x128_S1600000x1_S1600000x128_1_0_n_n_0_1_1128 x (wrapE (esrc e))))
    (broadcastInDim S100000x128 ![0, 1] bcast_S100000x1_S100000x128_0_1 (invCnt e))

/-- The same mean at width 64. -/
def agg64 (h : FVec Ideal S100000x64 .f32) (e : IVec S2x1600000 32) : FVec Ideal S100000x64 .f32 :=
  mulf
    (Host.scatterAdd scatter_S100000x64_S1600000x1_S1600000x64_1_0_0_1
      (broadcastInDim S100000x64 ![] bcast_S_S100000x64 (constant (F := Ideal) S_ .f32 0x00000000#32)) (dstCol e)
      (Host.gather gather_S100000x64_S1600000x1_S1600000x64_1_0_n_n_0_1_164 h (wrapE (esrc e))))
    (broadcastInDim S100000x64 ![0, 1] bcast_S100000x1_S100000x64_0_1 (invCnt e))

/-- A 64×128 weight transposed. -/
def wT128 (w : FVec Ideal S64x128 .f32) : FVec Ideal S128x64 .f32 := transpose S128x64 [1, 0] w transposes_S64x128_S128x64_1_0
/-- A 64×64 weight transposed. -/
def wT64 (w : FVec Ideal S64x64 .f32) : FVec Ideal S64x64 .f32 := transpose S64x64 [1, 0] w transposes_S64x64_S64x64_1_0
/-- A bias vector as a 1×64 row. -/
def bRow (b : FVec Ideal S64 .f32) : FVec Ideal S1x64 .f32 := shapeCast _ b shapeCasts_S64_S1x64

/-- The query indices padded with zeros to 49 whole blocks of 4096. -/
def padQ (s : IVec S200000 32) : IVec S200704 32 :=
  pad S200704 ![0] ![704] ![0] s (id (constantI S_ 32 0#32)) pads_S200000_S200704_07040 h_S_
/-- A negative padded index counts from the end (once), as a column of start indices. -/
def wrapQ (v : IVec S200704 32) : IVec S200704x1 32 :=
  broadcastInDim S200704x1 ![0] bcast_S200704_S200704x1_0
    (select (cmpi .slt v (broadcastInDim S200704 ![] bcast_S_S200704 (constantI S_ 32 0#32)))
      (addi v (broadcastInDim S200704 ![] bcast_S_S200704 (constantI S_ 32 100000#32))) v)
/-- The rows of `z` the padded queries name. -/
def zGather (z : FVec Ideal S100000x64 .f32) (s : IVec S200000 32) : FVec Ideal S200704x64 .f32 :=
  Host.gather gather_S100000x64_S200704x1_S200704x64_1_0_n_n_0_1_164 z (wrapQ (padQ s))
/-- The first 200000 scores, as a vector. -/
def outOf (o : FVec Ideal S200704x1 .f32) : FVec Ideal S200000 .f32 :=
  shapeCast _ (extractStridedSlice S200000x1 ![0, 0] o slices_S200704x1_S200000x1_0_0) shapeCasts_S200000x1_S200000

/-- The first layer's output: the layer function of the mean of the neighbours' rows of `x` and of `x` itself. -/
def kH (x : FVec Ideal S100000x128 .f32) (e : IVec S2x1600000 32) (wl1 : FVec Ideal S64x128 .f32) (b1 : FVec Ideal S64 .f32)
    (wr1 : FVec Ideal S64x128 .f32) : FVec Ideal S100000x64 .f32 :=
  Cert.Spec.layer (agg128 x e) x (wT128 wl1) (wT128 wr1) (bRow b1)

/-- The second layer's output. -/
def kZ (x : FVec Ideal S100000x128 .f32) (e : IVec S2x1600000 32) (wl1 : FVec Ideal S64x128 .f32) (b1 : FVec Ideal S64 .f32)
    (wr1 : FVec Ideal S64x128 .f32) (wl2 : FVec Ideal S64x64 .f32) (b2 : FVec Ideal S64 .f32) (wr2 : FVec Ideal S64x64 .f32) :
    FVec Ideal S100000x64 .f32 :=
  Cert.Spec.layer (agg64 (kH x e wl1 b1 wr1) e) (kH x e wl1 b1 wr1) (wT64 wl2) (wT64 wr2) (bRow b2)

/-- The program's result: the scores of the queries asked for. -/
def kOut (x : FVec Ideal S100000x128 .f32) (e : IVec S2x1600000 32) (s d : IVec S200000 32) (wl1 : FVec Ideal S64x128 .f32)
    (b1 : FVec Ideal S64 .f32) (wr1 : FVec Ideal S64x128 .f32) (wl2 : FVec Ideal S64x64 .f32) (b2 : FVec Ideal S64 .f32)
    (wr2 : FVec Ideal S64x64 .f32) : FVec Ideal S200000 .f32 :=
  outOf (Cert.Spec.decode (zGather (kZ x e wl1 b1 wr1 wl2 b2 wr2) s) (zGather (kZ x e wl1 b1 wr1 wl2 b2 wr2) d))

end Cert.KernelIdeal.Stage

end
-- ==== Proof.KArgs.lean ====
/-
  Names for the argument arrays as launched, at their literal array types.
-/
import proofs.«157437_j90452011254251_1_alg».proof.Proof.Gen.KernelIdeal.Frame
import proofs.«157437_j90452011254251_1_alg».proof.Proof.KStages

noncomputable section

namespace Cert.KernelIdeal.Walk

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The node features as launched. -/
abbrev aX : FVec Ideal S100000x128 .f32 := m ((c : Thread nD τ).loc main_arg0)
/-- The edge list as launched. -/
abbrev aE : IVec S2x1600000 32 := m ((c : Thread nD τ).loc main_arg1)
/-- The queries' source nodes as launched. -/
abbrev aS : IVec S200000 32 := m ((c : Thread nD τ).loc main_arg2)
/-- The queries' target nodes as launched. -/
abbrev aD : IVec S200000 32 := m ((c : Thread nD τ).loc main_arg3)
/-- The first layer's neighbour weight as launched. -/
abbrev aWl1 : FVec Ideal S64x128 .f32 := m ((c : Thread nD τ).loc main_arg4)
/-- The first layer's bias as launched. -/
abbrev aB1 : FVec Ideal S64 .f32 := m ((c : Thread nD τ).loc main_arg5)
/-- The first layer's root weight as launched. -/
abbrev aWr1 : FVec Ideal S64x128 .f32 := m ((c : Thread nD τ).loc main_arg6)
/-- The second layer's neighbour weight as launched. -/
abbrev aWl2 : FVec Ideal S64x64 .f32 := m ((c : Thread nD τ).loc main_arg7)
/-- The second layer's bias as launched. -/
abbrev aB2 : FVec Ideal S64 .f32 := m ((c : Thread nD τ).loc main_arg8)
/-- The second layer's root weight as launched. -/
abbrev aWr2 : FVec Ideal S64x64 .f32 := m ((c : Thread nD τ).loc main_arg9)

end Cert.KernelIdeal.Walk

end
-- ==== Proof.KRegion0.lean ====
/-
  Region 0 of the kernel's program as ONE whole-array function: the output array the pipeline leaves is, index by index,
  the specification's function of the arrays the region found on entry.

  The road. Entry (p, q) of what the body stores is, from the five blocks it loaded, the rectified sum of two inner
  products over the 128 contracted coordinates and one bias entry. At grid point t the two row-blocked inputs and the
  output sit at rows 5000 t … 5000 t + 4999 of their arrays, and the two weight matrices and the bias row are whole, so
  what point t writes back is block t of the layer of the whole arrays. Row r lies in block r / 5000, so the twenty
  blocks cover the 100000 rows, and the array ends holding the layer.
-/
import proofs.«157437_j90452011254251_1_alg».proof.Proof.Gen.KernelIdeal.Frame
import proofs.«157437_j90452011254251_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open scoped BigOperators

/-! ## A [5000,128] by [128,64] product at an entry -/

/-- Where the product's dimension numbers read the left operand: its row is the output's row, -/
private theorem prod_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- its column the contracted coordinate; -/
private theorem prod_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- and the right operand: its row is the contracted coordinate, -/
private theorem prod_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- its column the output's column. -/
private theorem prod_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of the product accumulated into zero is the inner product of row p of the left operand and column q of
    the right: the sum over the one contracted axis, re-indexed by its coordinate. -/
private theorem prod_entry {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  show FloatOps.matmul dot_S5000x128_S128x64_S5000x64_1_0_0_1_n_n none l r (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact prod_lhs_row _ _
    | ⟨1, _⟩ => exact (prod_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (prod_rhs_row _ _).trans hk
    | ⟨1, _⟩ => exact prod_rhs_col _ _)
  rw [el, er]

/-! ## The body's result at an entry -/

/-- Entry (p, q) of what the body stores, from the blocks it loaded: over the extended reals the narrowing of the four
    matrix operands changes nothing, each product into zero is an inner product, the bias row is read at its column, and
    the rectifier is the maximum with zero. -/
private theorem body_entry (x0 x1 : Vec Ideal S5000x128 .f32) (x2 x3 : Vec Ideal S128x64 .f32) (x4 : Vec Ideal S1x64 .f32)
    (p : Fin 5000) (q : Fin 64) :
    k0_pay1 x0 x1 x2 x3 x4 (ix2 p q)
      = max (((∑ k : Fin 128, x0 (ix2 p k) * x2 (ix2 k q)) + ∑ k : Fin 128, x1 (ix2 p k) * x3 (ix2 k q)) + x4 (ix2 (0 : Fin 1) q)) 0 := by
  unfold k0_pay1
  rw [maximumf_apply, addf_apply, addf_apply, prod_entry, prod_entry, broadcastTo_1b_ab_apply, broadcast_apply]
  simp only [truncf_apply, shapeCast_self, Ideal.ofBits_def, Ideal.ofBits_zero_f32]

/-- A block of the layer from the blocks of its arguments: if row p of the two row-blocked inputs is row `c0 i` of the
    two arrays, column q of the two weight blocks is column `c1 i` of the weights, and entry q of the bias block is
    entry `c1 i` of the bias row, then entry (p, q) of the body's result is entry `i` of the layer. -/
private theorem body_entry_of_blocks (A H : S100000x128.Idx → EReal) (Wl Wr : S128x64.Idx → EReal) (B : S1x64.Idx → EReal)
    (x0 x1 : Vec Ideal S5000x128 .f32) (x2 x3 : Vec Ideal S128x64 .f32) (x4 : Vec Ideal S1x64 .f32)
    (i : S100000x64.Idx) (p : Fin 5000) (q : Fin 64)
    (h0 : ∀ k : Fin 128, x0 (ix2 p k) = A (ix2 (Cert.Spec.c0 i) k))
    (h1 : ∀ k : Fin 128, x1 (ix2 p k) = H (ix2 (Cert.Spec.c0 i) k))
    (h2 : ∀ k : Fin 128, x2 (ix2 k q) = Wl (ix2 k (Cert.Spec.c1 i)))
    (h3 : ∀ k : Fin 128, x3 (ix2 k q) = Wr (ix2 k (Cert.Spec.c1 i)))
    (h4 : x4 (ix2 (0 : Fin 1) q) = B (ix2 (0 : Fin 1) (Cert.Spec.c1 i))) :
    k0_pay1 x0 x1 x2 x3 x4 (ix2 p q) = Cert.Spec.layer A H Wl Wr B i := by
  rw [body_entry]
  unfold Cert.Spec.layer
  simp only [h0, h1, h2, h3, h4]

/-! ## From the blocks to the array -/

variable (V : (c : Dev nD) → (b : Ref sig .tc) → Buf (Elt Ideal) ((c : Thread nD τ).loc b))

/-- The body loads and stores its whole staging buffers: through offsets zero on both axes. -/
private theorem zero_offsets : (![0, 0] : Fin 2 → Nat) = fun _ => 0 := funext fun a => by fin_cases a <;> rfl

/-- The index maps over the twenty grid points: the two row-blocked inputs and the output sit at block row t, column
    block 0; the two weight matrices and the bias row are at block (0, 0), whole, at every point. -/
private theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer of the arrays as the region finds them. An entry of a block sits in
    its array at block index times block size plus the coordinate inside the block, per axis; the inputs' block rows are
    the output's, and the whole windows are read at the output's column. -/
private theorem written_block (c : Dev nD) (t : Fin cfg0.N) :
    (dat0 (F := Ideal) V c).flushed 5 t
      = ((cfg0.win 5).blk t).view.read (Elt Ideal) (Cert.Spec.layer (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x64) zero_offsets, View.ld_unit_zero (S := S1x64) zero_offsets]
  obtain ⟨e00, e01, e10, e11, e20, e21, e30, e31, e40, e41, e50, e51⟩ := block_positions t
  funext j
  obtain ⟨p, q, rfl⟩ : ∃ (p : Fin 5000) (q : Fin 64), j = ix2 p q := ⟨j 0, j 1, eq_ix2 j⟩
  refine body_entry_of_blocks (V c main_v24) (V c main_arg0) (V c main_v25) (V c main_v26) (V c main_v27)
    (iblk0 V c 0 t) (iblk0 V c 1 t) (iblk0 V c 2 t) (iblk0 V c 3 t) (iblk0 V c 4 t)
    (((cfg0.win 5).blk t).view.emb (ix2 p q)) p q ?_ ?_ ?_ ?_ ?_
  · intro k
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_v25 (((cfg0.win 2).blk t).view.emb (ix2 k q)) = _
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 64 + 1 * q.val = win0_5.index t (1 : Fin 2) * 64 + 1 * q.val; omega
  · intro k
    show V c main_v26 (((cfg0.win 3).blk t).view.emb (ix2 k q)) = _
    refine congrArg (V c main_v26) (funext fun a => Fin.ext ?_)
    match a with
    | ⟨0, _⟩ => show win0_3.index t (0 : Fin 2) * 128 + 1 * k.val = k.val; omega
    | ⟨1, _⟩ => show win0_3.index t (1 : Fin 2) * 64 + 1 * q.val = win0_5.index t (1 : Fin 2) * 64 + 1 * q.val; omega
  · show V c main_v27 (((cfg0.win 4).blk t).view.emb (ix2 (0 : Fin 1) q)) = _
    refine congrArg (V c main_v27) (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 64 + 1 * q.val = win0_5.index t (1 : Fin 2) * 64 + 1 * q.val; omega

/-- An index of the output array is in point t's block iff each coordinate is in the block's range on its axis. -/
private theorem in_block_iff (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- THE COVER: row r of the output array lies in the block of point r / 5000, one of the twenty, and every point writes
    its block back. -/
private theorem rows_covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := block_positions t
  refine ⟨t, flush0_5 t, ?_⟩
  rw [in_block_iff]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After region 0 its output array holds the first layer of the arrays it found: the 20 row blocks of 5000 tile the 100000 rows. -/
theorem reg0_arr (c : Dev nD) :
    (dat0 (F := Ideal) V c).arrAt 5 cfg0.N
      = Cert.Spec.layer (V c main_v24) (V c main_arg0) (V c main_v25) (V c main_v26) (V c main_v27) :=
  (dat0 (F := Ideal) V c).arrAt_eq_of_cover 5
    (Cert.Spec.layer (V c main_v24) (V c main_arg0) (V c main_v25) (V c main_v26) (V c main_v27))
    (fun t _ => written_block V c t) rows_covered

end Cert.KernelIdeal.Region

end
-- ==== Proof.KWalk0.lean ====
/-
  The program's buffers up to the end of region 0, by name: the host operations before region 0 compute the mean of the
  neighbours' rows, the transposed weights and the bias row from the arguments; region 0 then leaves the first layer's
  output; nothing else these later stretches read has changed.
-/
import proofs.«157437_j90452011254251_1_alg».proof.Proof.KArgs
import proofs.«157437_j90452011254251_1_alg».proof.Proof.KRegion0
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Cert.KernelIdeal.Stage

variable (m : (ℓ : Loc nD τ sig) → Buf (Elt Ideal) ℓ) (ρ : Dev nD → PrngReg) (c : Dev nD)

/-! ## At region 0's entry

The first stretch is a straight line of operations, each writing one buffer of its own from buffers written earlier in
the line or from the arguments. Reading a buffer after the line therefore means reading back through the line: the
operation that writes it, applied to what its operands held, and so on down to the arguments, which nothing writes. -/

/-- The first stretch writes none of the buffers in question: each of its operations writes exactly one buffer, and
    that buffer has another name. -/
local macro "first_stretch_keeps" : tactic =>
  `(tactic| (
    refine List.forall_iff_forall_mem.mp ?_
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The node features reach region 0 as launched. -/
private theorem w1_arg0 : W1 m ρ c (Proc.devRef .tc main_arg0) = aX m c :=
  StableHlo.after_of_forall_not_mem (b := Proc.devRef .tc main_arg0) hostOps0 (W0 m ρ c) (by first_stretch_keeps)
private theorem w1_arg2 : W1 m ρ c (Proc.devRef .tc main_arg2) = aS m c :=
  StableHlo.after_of_forall_not_mem (b := Proc.devRef .tc main_arg2) hostOps0 (W0 m ρ c) (by first_stretch_keeps)
private theorem w1_arg3 : W1 m ρ c (Proc.devRef .tc main_arg3) = aD m c :=
  StableHlo.after_of_forall_not_mem (b := Proc.devRef .tc main_arg3) hostOps0 (W0 m ρ c) (by first_stretch_keeps)
private theorem w1_arg7 : W1 m ρ c (Proc.devRef .tc main_arg7) = aWl2 m c :=
  StableHlo.after_of_forall_not_mem (b := Proc.devRef .tc main_arg7) hostOps0 (W0 m ρ c) (by first_stretch_keeps)
private theorem w1_arg8 : W1 m ρ c (Proc.devRef .tc main_arg8) = aB2 m c :=
  StableHlo.after_of_forall_not_mem (b := Proc.devRef .tc main_arg8) hostOps0 (W0 m ρ c) (by first_stretch_keeps)
private theorem w1_arg9 : W1 m ρ c (Proc.devRef .tc main_arg9) = aWr2 m c :=
  StableHlo.after_of_forall_not_mem (b := Proc.devRef .tc main_arg9) hostOps0 (W0 m ρ c) (by first_stretch_keeps)

/-- Row 0 of the edge list, flattened. -/
private theorem w1_v1 : W1 m ρ c (Proc.devRef .tc main_v1) = esrc (aE m c) := by
  show StableHlo.after hostOps0 (W0 m ρ c) (Proc.devRef .tc main_v1) = _
  after_results
  unfold esrc
  rfl
/-- Row 1 of the edge list, flattened. -/
private theorem w1_v3 : W1 m ρ c (Proc.devRef .tc main_v3) = edst (aE m c) := by
  show StableHlo.after hostOps0 (W0 m ρ c) (Proc.devRef .tc main_v3) = _
  after_results
  unfold edst
  rfl
/-- Ones scattered onto zeros along the edges' targets, raised to at least one, inverted, as a column. -/
private theorem w1_v12 : W1 m ρ c (Proc.devRef .tc main_v12) = invCnt (aE m c) := by
  show StableHlo.after hostOps0 (W0 m ρ c) (Proc.devRef .tc main_v12) = _
  after_results
  unfold invCnt cnt dstCol edst
  rfl
/-- The rows of the features gathered at the edges' sources, scatter-added at their targets, times the reciprocal
    in-degree broadcast along the row. -/
private theorem w1_v24 : W1 m ρ c (Proc.devRef .tc main_v24) = agg128 (aX m c) (aE m c) := by
  show StableHlo.after hostOps0 (W0 m ρ c) (Proc.devRef .tc main_v24) = _
  after_results_simp
  unfold agg128 invCnt cnt dstCol edst esrc wrapE
  rfl
/-- The first layer's two weights transposed and its bias as a row. -/
private theorem w1_v25 : W1 m ρ c (Proc.devRef .tc main_v25) = wT128 (aWl1 m c) := by
  show StableHlo.after hostOps0 (W0 m ρ c) (Proc.devRef .tc main_v25) = _
  after_results
  unfold wT128
  rfl
private theorem w1_v26 : W1 m ρ c (Proc.devRef .tc main_v26) = wT128 (aWr1 m c) := by
  show StableHlo.after hostOps0 (W0 m ρ c) (Proc.devRef .tc main_v26) = _
  after_results
  unfold wT128
  rfl
private theorem w1_v27 : W1 m ρ c (Proc.devRef .tc main_v27) = bRow (aB1 m c) := by
  show StableHlo.after hostOps0 (W0 m ρ c) (Proc.devRef .tc main_v27) = _
  after_results
  unfold bRow
  rfl

/-! ## At region 0's exit

Region 0 reads five arrays and writes one. Its output array holds the layer function of the five as they stood at
entry; every buffer that is not one of its six arrays is as at entry. -/

/-- At region 0's exit its output array is the first layer's output of the arguments. -/
theorem w2_v28 : W2 m ρ c (Proc.devRef .tc main_v28) = kH (aX m c) (aE m c) (aWl1 m c) (aB1 m c) (aWr1 m c) := by
  refine (W2_arr m ρ c 5).trans ((Cert.KernelIdeal.Region.reg0_arr (V1 (F := Ideal) m ρ) c).trans ?_)
  show Cert.Spec.layer (W1 m ρ c (Proc.devRef .tc main_v24)) (W1 m ρ c (Proc.devRef .tc main_arg0))
    (W1 m ρ c (Proc.devRef .tc main_v25)) (W1 m ρ c (Proc.devRef .tc main_v26)) (W1 m ρ c (Proc.devRef .tc main_v27)) = _
  rw [w1_v24, w1_arg0, w1_v25, w1_v26, w1_v27]
  unfold kH
  rfl
/-- At region 0's exit the edges' sources are still what the first stretch computed. -/
theorem w2_v1 : W2 m ρ c (Proc.devRef .tc main_v1) = esrc (aE m c) :=
  (W2_of_ne m ρ c main_v1 (by decide)).trans (w1_v1 m ρ c)
/-- At region 0's exit the edges' targets are still what the first stretch computed. -/
theorem w2_v3 : W2 m ρ c (Proc.devRef .tc main_v3) = edst (aE m c) :=
  (W2_of_ne m ρ c main_v3 (by decide)).trans (w1_v3 m ρ c)
/-- At region 0's exit the reciprocal in-degrees are still what the first stretch computed. -/
theorem w2_v12 : W2 m ρ c (Proc.devRef .tc main_v12) = invCnt (aE m c) :=
  (W2_of_ne m ρ c main_v12 (by decide)).trans (w1_v12 m ρ c)
/-- At region 0's exit the arguments the later stretches read are as launched. -/
theorem w2_arg2 : W2 m ρ c (Proc.devRef .tc main_arg2) = aS m c :=
  (W2_of_ne m ρ c main_arg2 (by decide)).trans (w1_arg2 m ρ c)
theorem w2_arg3 : W2 m ρ c (Proc.devRef .tc main_arg3) = aD m c :=
  (W2_of_ne m ρ c main_arg3 (by decide)).trans (w1_arg3 m ρ c)
theorem w2_arg7 : W2 m ρ c (Proc.devRef .tc main_arg7) = aWl2 m c :=
  (W2_of_ne m ρ c main_arg7 (by decide)).trans (w1_arg7 m ρ c)
theorem w2_arg8 : W2 m ρ c (Proc.devRef .tc main_arg8) = aB2 m c :=
  (W2_of_ne m ρ c main_arg8 (by decide)).trans (w1_arg8 m ρ c)
theorem w2_arg9 : W2 m ρ c (Proc.devRef .tc main_arg9) = aWr2 m c :=
  (W2_of_ne m ρ c main_arg9 (by decide)).trans (w1_arg9 m ρ c)

end Cert.KernelIdeal.Walk

end
-- ==== Proof.KRegion1.lean ====
/-
  Region 1 of the kernel's program as ONE whole-array function: the output array the pipeline leaves is, index by index,
  the specification's function of the arrays the region found on entry.

  The road. Entry (p, q) of what the body stores is, from the five blocks it loaded, the rectified sum of two inner
  products over the 64 contracted coordinates and one bias entry. At grid point t the two row-blocked inputs and the
  output sit at rows 5000 t … 5000 t + 4999 of their arrays, and the two square weight matrices and the bias row are
  whole, so what point t writes back is block t of the layer of the whole arrays. Row r lies in block r / 5000, so the
  twenty blocks cover the 100000 rows, and the array ends holding the layer.
-/
import proofs.«157437_j90452011254251_1_alg».proof.Proof.Gen.KernelIdeal.Frame
import proofs.«157437_j90452011254251_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open scoped BigOperators

/-! ## A [5000,64] by [64,64] product at an entry -/

/-- Where the product's dimension numbers read the left operand: its row is the output's row, -/
private theorem prod_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the contracted coordinate; -/
private theorem prod_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and the right operand: its row is the contracted coordinate, -/
private theorem prod_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column the output's column. -/
private theorem prod_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product accumulated into zero is the inner product of row p of the left operand and column q of
    the right: the sum over the one contracted axis, re-indexed by its coordinate. -/
private theorem prod_entry {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact prod_lhs_row _ _
    | ⟨1, _⟩ => exact (prod_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (prod_rhs_row _ _).trans hk
    | ⟨1, _⟩ => exact prod_rhs_col _ _)
  rw [el, er]

/-! ## The body's result at an entry -/

/-- Entry (p, q) of what the body stores, from the blocks it loaded: over the extended reals the narrowing of the four
    matrix operands changes nothing, each product into zero is an inner product, the bias row is read at its column, and
    the rectifier is the maximum with zero. -/
private theorem body_entry (x0 x1 : Vec Ideal S5000x64 .f32) (x2 x3 : Vec Ideal S64x64 .f32) (x4 : Vec Ideal S1x64 .f32)
    (p : Fin 5000) (q : Fin 64) :
    k1_pay1 x0 x1 x2 x3 x4 (ix2 p q)
      = max (((∑ k : Fin 64, x0 (ix2 p k) * x2 (ix2 k q)) + ∑ k : Fin 64, x1 (ix2 p k) * x3 (ix2 k q)) + x4 (ix2 (0 : Fin 1) q)) 0 := by
  unfold k1_pay1
  rw [maximumf_apply, addf_apply, addf_apply, prod_entry, prod_entry, broadcastTo_1b_ab_apply, broadcast_apply]
  simp only [truncf_apply, shapeCast_self, Ideal.ofBits_def, Ideal.ofBits_zero_f32]

/-- A block of the layer from the blocks of its arguments: if row p of the two row-blocked inputs is row `c0 i` of the
    two arrays, column q of the two weight blocks is column `c1 i` of the weights, and entry q of the bias block is
    entry `c1 i` of the bias row, then entry (p, q) of the body's result is entry `i` of the layer. -/
private theorem body_entry_of_blocks (A H : S100000x64.Idx → EReal) (Wl Wr : S64x64.Idx → EReal) (B : S1x64.Idx → EReal)
    (x0 x1 : Vec Ideal S5000x64 .f32) (x2 x3 : Vec Ideal S64x64 .f32) (x4 : Vec Ideal S1x64 .f32)
    (i : S100000x64.Idx) (p : Fin 5000) (q : Fin 64)
    (h0 : ∀ k : Fin 64, x0 (ix2 p k) = A (ix2 (Cert.Spec.c0 i) k))
    (h1 : ∀ k : Fin 64, x1 (ix2 p k) = H (ix2 (Cert.Spec.c0 i) k))
    (h2 : ∀ k : Fin 64, x2 (ix2 k q) = Wl (ix2 k (Cert.Spec.c1 i)))
    (h3 : ∀ k : Fin 64, x3 (ix2 k q) = Wr (ix2 k (Cert.Spec.c1 i)))
    (h4 : x4 (ix2 (0 : Fin 1) q) = B (ix2 (0 : Fin 1) (Cert.Spec.c1 i))) :
    k1_pay1 x0 x1 x2 x3 x4 (ix2 p q) = Cert.Spec.layer A H Wl Wr B i := by
  rw [body_entry]
  unfold Cert.Spec.layer
  simp only [h0, h1, h2, h3, h4]

/-! ## From the blocks to the array -/

variable (V : (c : Dev nD) → (b : Ref sig .tc) → Buf (Elt Ideal) ((c : Thread nD τ).loc b))

/-- The body loads and stores its whole staging buffers: through offsets zero on both axes. -/
private theorem zero_offsets : (![0, 0] : Fin 2 → Nat) = fun _ => 0 := funext fun a => by fin_cases a <;> rfl

/-- The index maps over the twenty grid points: the two row-blocked inputs and the output sit at block row t, column
    block 0; the two weight matrices and the bias row are at block (0, 0), whole, at every point. -/
private theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer of the arrays as the region finds them. An entry of a block sits in
    its array at block index times block size plus the coordinate inside the block, per axis; the inputs' block rows are
    the output's, and the whole windows are read at the output's column. -/
private theorem written_block (c : Dev nD) (t : Fin cfg1.N) :
    (dat1 (F := Ideal) V c).flushed 5 t
      = ((cfg1.win 5).blk t).view.read (Elt Ideal) (Cert.Spec.layer (V c main_v40) (V c main_v28) (V c main_v41) (V c main_v42) (V c main_v43)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets, View.ld_unit_zero (S := S1x64) zero_offsets]
  obtain ⟨e00, e01, e10, e11, e20, e21, e30, e31, e40, e41, e50, e51⟩ := block_positions t
  funext j
  obtain ⟨p, q, rfl⟩ : ∃ (p : Fin 5000) (q : Fin 64), j = ix2 p q := ⟨j 0, j 1, eq_ix2 j⟩
  refine body_entry_of_blocks (V c main_v40) (V c main_v28) (V c main_v41) (V c main_v42) (V c main_v43)
    (iblk1 V c 0 t) (iblk1 V c 1 t) (iblk1 V c 2 t) (iblk1 V c 3 t) (iblk1 V c 4 t)
    (((cfg1.win 5).blk t).view.emb (ix2 p q)) p q ?_ ?_ ?_ ?_ ?_
  · intro k
    show V c main_v40 (((cfg1.win 0).blk t).view.emb (ix2 p k)) = _
    refine congrArg (V c main_v40) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  · intro k
    show V c main_v28 (((cfg1.win 1).blk t).view.emb (ix2 p k)) = _
    refine congrArg (V c main_v28) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  · intro k
    show V c main_v41 (((cfg1.win 2).blk t).view.emb (ix2 k q)) = _
    refine congrArg (V c main_v41) (funext fun a => Fin.ext ?_)
    match a with
    | ⟨0, _⟩ => show win1_2.index t (0 : Fin 2) * 64 + 1 * k.val = k.val; omega
    | ⟨1, _⟩ => show win1_2.index t (1 : Fin 2) * 64 + 1 * q.val = win1_5.index t (1 : Fin 2) * 64 + 1 * q.val; omega
  · intro k
    show V c main_v42 (((cfg1.win 3).blk t).view.emb (ix2 k q)) = _
    refine congrArg (V c main_v42) (funext fun a => Fin.ext ?_)
    match a with
    | ⟨0, _⟩ => show win1_3.index t (0 : Fin 2) * 64 + 1 * k.val = k.val; omega
    | ⟨1, _⟩ => show win1_3.index t (1 : Fin 2) * 64 + 1 * q.val = win1_5.index t (1 : Fin 2) * 64 + 1 * q.val; omega
  · show V c main_v43 (((cfg1.win 4).blk t).view.emb (ix2 (0 : Fin 1) q)) = _
    refine congrArg (V c main_v43) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 64 + 1 * q.val = win1_5.index t (1 : Fin 2) * 64 + 1 * q.val; omega

/-- An index of the output array is in point t's block iff each coordinate is in the block's range on its axis. -/
private theorem in_block_iff (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- THE COVER: row r of the output array lies in the block of point r / 5000, one of the twenty, and every point writes
    its block back. -/
private theorem rows_covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := block_positions t
  refine ⟨t, flush1_5 t, ?_⟩
  rw [in_block_iff]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After region 1 its output array holds the second layer of the arrays it found: the 20 row blocks of 5000 tile the 100000 rows. -/
theorem reg1_arr (c : Dev nD) :
    (dat1 (F := Ideal) V c).arrAt 5 cfg1.N
      = Cert.Spec.layer (V c main_v40) (V c main_v28) (V c main_v41) (V c main_v42) (V c main_v43) :=
  (dat1 (F := Ideal) V c).arrAt_eq_of_cover 5
    (Cert.Spec.layer (V c main_v40) (V c main_v28) (V c main_v41) (V c main_v42) (V c main_v43))
    (fun t _ => written_block V c t) rows_covered

end Cert.KernelIdeal.Region

end
-- ==== Proof.KWalk1.lean ====
/-
  The program's buffers from region 0's exit to region 1's exit, by name: the host operations between the two regions
  compute the mean of the neighbours' rows of the first layer's output, the transposed weights and the bias row; region 1
  then leaves the second layer's output; the query arguments have not changed.
-/
import proofs.«157437_j90452011254251_1_alg».proof.Proof.KWalk0
import proofs.«157437_j90452011254251_1_alg».proof.Proof.KRegion1

set_option maxRecDepth 16384

noncomputable section

namespace Cert.KernelIdeal.Walk

open Cert.KernelIdeal Cert.KernelIdeal.Gen Idealize.ShloMosaic Idealize.ShloMosaic.TcCoe Idealize.SL.Sem Cert.KernelIdeal.Stage

variable (m : (ℓ : Loc nD τ sig) → Buf (Elt Ideal) ℓ) (ρ : Dev nD → PrngReg) (c : Dev nD)

/-! ## Region 1's entry: the buffers after the host operations that follow region 0 -/

/-- The first layer's output is written by none of those operations: it is still what region 0 left. -/
private theorem w3_v28 : W3 m ρ c (Proc.devRef .tc main_v28)
    = kH (aX m c) (aE m c) (aWl1 m c) (aB1 m c) (aWr1 m c) :=
  (StableHlo.after_of_forall_not_mem (b := Proc.devRef .tc main_v28) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (w2_v28 m ρ c)

/-- The queries' sources are written by none of those operations. -/
private theorem w3_arg2 : W3 m ρ c (Proc.devRef .tc main_arg2) = aS m c :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (w2_arg2 m ρ c)

/-- The queries' targets are written by none of those operations. -/
private theorem w3_arg3 : W3 m ρ c (Proc.devRef .tc main_arg3) = aD m c :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (w2_arg3 m ρ c)

/-- The second layer's neighbour weight, transposed. -/
private theorem w3_v41 : W3 m ρ c (Proc.devRef .tc main_v41) = wT64 (aWl2 m c) := by
  show StableHlo.after hostOps1 (W2 m ρ c) (Proc.devRef .tc main_v41) = _
  after_results
  rw [w2_arg7]
  rfl

/-- The second layer's root weight, transposed. -/
private theorem w3_v42 : W3 m ρ c (Proc.devRef .tc main_v42) = wT64 (aWr2 m c) := by
  show StableHlo.after hostOps1 (W2 m ρ c) (Proc.devRef .tc main_v42) = _
  after_results
  rw [w2_arg9]
  rfl

/-- The second layer's bias, as a row. -/
private theorem w3_v43 : W3 m ρ c (Proc.devRef .tc main_v43) = bRow (aB2 m c) := by
  show StableHlo.after hostOps1 (W2 m ρ c) (Proc.devRef .tc main_v43) = _
  after_results
  rw [w2_arg8]
  rfl

/-- The mean of the neighbours' rows of the first layer's output: the operations gather the rows at the wrapped sources,
    add them up at the targets and multiply by the reciprocal in-degree, all read from what region 0 left. -/
private theorem w3_v40 : W3 m ρ c (Proc.devRef .tc main_v40)
    = agg64 (kH (aX m c) (aE m c) (aWl1 m c) (aB1 m c) (aWr1 m c)) (aE m c) := by
  show StableHlo.after hostOps1 (W2 m ρ c) (Proc.devRef .tc main_v40) = _
  after_results_simp
  rw [w2_v1, w2_v3, w2_v12, w2_v28]
  unfold agg64 dstCol wrapE
  rfl

/-! ## Region 1's exit -/

/-- At region 1's exit its output array is the second layer's output of the arguments. -/
theorem w4_v44 : W4 m ρ c (Proc.devRef .tc main_v44)
    = kZ (aX m c) (aE m c) (aWl1 m c) (aB1 m c) (aWr1 m c) (aWl2 m c) (aB2 m c) (aWr2 m c) :=
  (W4_arr m ρ c 5).trans ((Cert.KernelIdeal.Region.reg1_arr (V3 (F := Ideal) m ρ) c).trans (by
    rw [show V3 m ρ c main_v40 = W3 m ρ c (Proc.devRef .tc main_v40) from rfl,
      show V3 m ρ c main_v28 = W3 m ρ c (Proc.devRef .tc main_v28) from rfl,
      show V3 m ρ c main_v41 = W3 m ρ c (Proc.devRef .tc main_v41) from rfl,
      show V3 m ρ c main_v42 = W3 m ρ c (Proc.devRef .tc main_v42) from rfl,
      show V3 m ρ c main_v43 = W3 m ρ c (Proc.devRef .tc main_v43) from rfl,
      w3_v40, w3_v28, w3_v41, w3_v42, w3_v43]
    rfl))
/-- At region 1's exit the queries' sources are as launched. -/
theorem w4_arg2 : W4 m ρ c (Proc.devRef .tc main_arg2) = aS m c :=
  (W4_of_ne m ρ c main_arg2 (by decide)).trans (w3_arg2 m ρ c)
/-- At region 1's exit the queries' targets are as launched. -/
theorem w4_arg3 : W4 m ρ c (Proc.devRef .tc main_arg3) = aD m c :=
  (W4_of_ne m ρ c main_arg3 (by decide)).trans (w3_arg3 m ρ c)

end Cert.KernelIdeal.Walk

end
-- ==== Proof.KRegion2.lean ====
/-
  Region 2 of the kernel's program as ONE whole-array function: the output array the pipeline leaves is, index by index,
  the specification's function of the arrays the region found on entry.
-/
import proofs.«157437_j90452011254251_1_alg».proof.Proof.Gen.KernelIdeal.Frame
import proofs.«157437_j90452011254251_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Inserting the lane coordinate `k` on the reduced (second) axis of a row index gives the row-and-lane index. -/
private theorem lane_index (r : Fin 4096) (k : Fin (S4096x64.size 1)) :
    reduces_S4096x64_S4096.lift (ix1 r) k = ix2 r k :=
  funext fun a => Fin.ext (match a with | ⟨0, _⟩ => rfl | ⟨1, _⟩ => rfl)

/-- THE BODY'S RESULT AT AN INDEX: row `r` of what the body stores is the logistic function of the sum over the 64 lanes
    of the entrywise products of row `r` of its two loaded blocks (the casts to the same shape do nothing, the lane sum
    is a sum over the lane coordinate, and the cast to a column keeps the row-major position). -/
private theorem score_at (x0 x1 : Vec Ideal S4096x64 .f32) (r : Fin 4096) (u : Fin 1) :
    (k2_pay1 (F := Ideal) x0 x1) (ix2 r u) = Ideal.logistic (∑ k : Fin 64, x0 (ix2 r k) * x1 (ix2 r k)) := by
  unfold k2_pay1
  dsimp only
  refine congrArg Ideal.logistic ?_
  refine (shapeCast_apply _ _ (ix2 r u) (ix1 r) ?_).trans ?_
  · rw [Shape.rowMajor_val_one, Shape.rowMajor_val_two]
    show r.val = r.val * 1 + u.val
    have := u.isLt
    omega
  refine (Ideal.multiReduction_add_single _ _ _ _ _ (ix1 r)).trans ?_
  refine Finset.sum_congr rfl fun k _ => ?_
  rw [shapeCast_self, shapeCast_self, lane_index]
  rfl

/-- Zero offsets on both axes, spelt as the body's whole-buffer accesses spell them. -/
private theorem zeros2 : (![0, 0] : Fin 2 → Nat) = fun _ => 0 := funext fun a => by fin_cases a <;> rfl

/-- Every rank-2 index is the pair of its two coordinates read as numbers below the extents. -/
private theorem eq_pair {n0 n1 : Nat} (y : (⟨2, ![n0, n1]⟩ : Shape).Idx) :
    y = ix2 (Cert.Spec.c0 y) (Cert.Spec.c1 y) :=
  funext fun a => Fin.ext (match a with | ⟨0, _⟩ => rfl | ⟨1, _⟩ => rfl)

/-- ONE ENTRY OF THE BODY'S RESULT AGAINST ONE ENTRY OF THE SPECIFICATION: if row `y 0` of each loaded block is row `i 0`
    of the corresponding array, lane by lane, then the body's result at `y` is the score of query `i 0`. -/
private theorem score_block (x0 x1 : Vec Ideal S4096x64 .f32) (a0 a1 : S200704x64.Idx → EReal) (y : S4096x1.Idx) (i : S200704x1.Idx)
    (h0 : ∀ k : Fin 64, x0 (ix2 (Cert.Spec.c0 y) k) = a0 (ix2 (Cert.Spec.c0 i) k))
    (h1 : ∀ k : Fin 64, x1 (ix2 (Cert.Spec.c0 y) k) = a1 (ix2 (Cert.Spec.c0 i) k)) :
    (k2_pay1 (F := Ideal) x0 x1) y = Cert.Spec.decode a0 a1 i := by
  refine (congrArg (k2_pay1 (F := Ideal) x0 x1) (eq_pair y)).trans ?_
  refine (score_at x0 x1 (Cert.Spec.c0 y) (Cert.Spec.c1 y)).trans ?_
  exact congrArg Ideal.logistic (Finset.sum_congr rfl fun k _ => by rw [h0 k, h1 k])

/-- The printed index maps, decided once over the 49 grid points: at point `t` every window's block index is `(t, 0)`:
    the three windows move together down the rows. -/
private theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The first input's block at point `t` is rows `4096 t … 4096 t + 4095` of the first gathered array. -/
private theorem src_block (c : Dev nD) (t : Fin cfg2.N) (x : S4096x64.Idx) (i : S200704x64.Idx)
    (h0 : (i 0).val = 4096 * t.val + (x 0).val) (h1 : (i 1).val = (x 1).val) :
    (iblk2 V c 0 t : Vec Ideal S4096x64 .f32) x = (V c main_v53 : S200704x64.Idx → EReal) i := by
  obtain ⟨e0, e1, -⟩ := block_index t
  unfold iblk2
  rw [View.read_apply]
  show V c main_v53 _ = V c main_v53 _
  congr 1
  funext a
  apply Fin.ext
  match a with
  | ⟨0, _⟩ => show win2_0.index t (0 : Fin 2) * 4096 + 1 * (x 0).val = (i 0).val; rw [e0, h0]; omega
  | ⟨1, _⟩ => show win2_0.index t (1 : Fin 2) * 64 + 1 * (x 1).val = (i 1).val; rw [e1, h1]; omega

/-- The second input's block at point `t` is the same rows of the second gathered array. -/
private theorem dst_block (c : Dev nD) (t : Fin cfg2.N) (x : S4096x64.Idx) (i : S200704x64.Idx)
    (h0 : (i 0).val = 4096 * t.val + (x 0).val) (h1 : (i 1).val = (x 1).val) :
    (iblk2 V c 1 t : Vec Ideal S4096x64 .f32) x = (V c main_v60 : S200704x64.Idx → EReal) i := by
  obtain ⟨-, -, e0, e1, -⟩ := block_index t
  unfold iblk2
  rw [View.read_apply]
  show V c main_v60 _ = V c main_v60 _
  congr 1
  funext a
  apply Fin.ext
  match a with
  | ⟨0, _⟩ => show win2_1.index t (0 : Fin 2) * 4096 + 1 * (x 0).val = (i 0).val; rw [e0, h0]; omega
  | ⟨1, _⟩ => show win2_1.index t (1 : Fin 2) * 64 + 1 * (x 1).val = (i 1).val; rw [e1, h1]; omega

/-- WHAT POINT `t` WRITES BACK is block `t` of the specification's whole-array function of the two gathered arrays: the
    output's row `4096 t + r` is computed from row `r` of the two input blocks, which is row `4096 t + r` of the arrays. -/
private theorem flushed_eq (c : Dev nD) (t : Fin cfg2.N) :
    (dat2 (F := Ideal) V c).flushed 2 t
      = ((cfg2.win 2).blk t).view.read (Elt Ideal) (Cert.Spec.decode (V c main_v53) (V c main_v60)) := by
  show (cfg2.win 2).cut (grid2.coords t) ((dat2 V c).after 2 t) = _
  rw [after2_2]
  unfold out2_2
  rw [View.canon_unit_zero zeros2]
  simp only [View.ld_unit_zero (S := S4096x64) zeros2]
  obtain ⟨-, -, -, -, e0, e1⟩ := block_index t
  funext y
  rw [View.read_apply]
  show (k2_pay1 (F := Ideal) (iblk2 V c 0 t) (iblk2 V c 1 t)) ((cfg2.win 2).xinj (grid2.coords t) y)
    = Cert.Spec.decode (V c main_v53) (V c main_v60) (((cfg2.win 2).blk t).view.emb y)
  have hrow : ((((cfg2.win 2).blk t).view.emb y) 0).val = 4096 * t.val + (y 0).val := by
    show win2_2.index t (0 : Fin 2) * 4096 + 1 * (y 0).val = _
    rw [e0]; omega
  refine score_block (iblk2 V c 0 t) (iblk2 V c 1 t) (V c main_v53) (V c main_v60)
    ((cfg2.win 2).xinj (grid2.coords t) y) (((cfg2.win 2).blk t).view.emb y) (fun k => ?_) (fun k => ?_)
  · exact src_block V c t _ _ hrow rfl
  · exact dst_block V c t _ _ hrow rfl

/-- An index of the output array lies in point `t`'s block iff, on each axis, its coordinate is within the block's
    extent from the block's first coordinate (block index times block size). -/
private theorem mem_blk (t : Fin cfg2.N) (i : S200704x1.Idx) :
    i ∈ ((cfg2.win 2).blk t).view.set
      ↔ ∀ a : Fin 2, win2_2.index t a * S4096x1.size a ≤ (i a).val
          ∧ (i a).val < win2_2.index t a * S4096x1.size a + S4096x1.size a := by
  show i ∈ ((View.whole main_v61).slice (win2_2.rect t)).set ↔ _
  rw [View.set_slice_whole, Rect.mem_set_unit]
  exact Iff.rfl

/-- THE BLOCKS COVER THE ARRAY: row `r` of the 200704 = 49 · 4096 rows lies in the block of point `r / 4096`, and the one
    column in every block. -/
private theorem covered (i : S200704x1.Idx) :
    ∃ t : Fin cfg2.N, (cfg2.win 2).flush t = true ∧ i ∈ ((cfg2.win 2).blk t).view.set := by
  have hi0 : (i 0).val < 200704 := (i 0).isLt
  have hi1 : (i 1).val < 1 := (i 1).isLt
  have hlt : (i 0).val / 4096 < cfg2.N := by rw [show cfg2.N = 49 from N_2]; omega
  obtain ⟨-, -, -, -, e0, e1⟩ := block_index ⟨(i 0).val / 4096, hlt⟩
  have e0' : win2_2.index ⟨(i 0).val / 4096, hlt⟩ (0 : Fin 2) = (i 0).val / 4096 := e0
  refine ⟨⟨(i 0).val / 4096, hlt⟩, flush2_2 _, ?_⟩
  rw [mem_blk]
  intro a
  match a with
  | ⟨0, _⟩ =>
    show win2_2.index ⟨(i 0).val / 4096, hlt⟩ (0 : Fin 2) * 4096 ≤ (i 0).val
      ∧ (i 0).val < win2_2.index ⟨(i 0).val / 4096, hlt⟩ (0 : Fin 2) * 4096 + 4096
    rw [e0']; omega
  | ⟨1, _⟩ =>
    show win2_2.index ⟨(i 0).val / 4096, hlt⟩ (1 : Fin 2) * 1 ≤ (i 1).val
      ∧ (i 1).val < win2_2.index ⟨(i 0).val / 4096, hlt⟩ (1 : Fin 2) * 1 + 1
    rw [e1]; omega

/-- After region 2 its output array holds the scores of the gathered rows it found: the 49 row blocks of 4096 tile the 200704 rows. -/
theorem reg2_arr (c : Dev nD) :
    (dat2 (F := Ideal) V c).arrAt 2 cfg2.N = Cert.Spec.decode (V c main_v53) (V c main_v60) :=
  (dat2 (F := Ideal) V c).arrAt_eq_of_cover 2 (Cert.Spec.decode (V c main_v53) (V c main_v60))
    (fun t _ => flushed_eq V c t) covered

end Cert.KernelIdeal.Region

end
-- ==== Proof.KWalk2.lean ====
/-
  The program's result buffer at the end, by name: the host operations after region 1 pad the queries and gather the rows
  of the second layer's output, region 2 scores them, and the last two host operations cut the padding off.
-/
import proofs.«157437_j90452011254251_1_alg».proof.Proof.KWalk1
import proofs.«157437_j90452011254251_1_alg».proof.Proof.KRegion2

set_option maxRecDepth 16384

noncomputable section

namespace Cert.KernelIdeal.Walk

open Cert.KernelIdeal Cert.KernelIdeal.Gen Idealize.ShloMosaic Idealize.ShloMosaic.TcCoe Idealize.SL.Sem Cert.KernelIdeal.Stage

variable (m : (ℓ : Loc nD τ sig) → Buf (Elt Ideal) ℓ) (ρ : Dev nD → PrngReg) (c : Dev nD)

/-- A stretch of host operations leaves a buffer none of them writes as it found it: the stretch's list is unfolded to
    its operations' result buffers, each of which is another reference than the one asked about. -/
local macro "unwritten " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ### After the first padding constant

The stretch writes the constant zero; the queries and the second layer's output are not its buffers. -/

private theorem w5_c8 : W5 m ρ c (Proc.devRef .tc main_c_8) = constantI S_ 32 0#32 := by
  show StableHlo.after hostOps2 (W4 m ρ c) (Proc.devRef .tc main_c_8) = _
  after_results

private theorem w5_arg2 : W5 m ρ c (Proc.devRef .tc main_arg2) = aS m c := by
  rw [← w4_arg2 m ρ c]
  unwritten hostOps2

private theorem w5_arg3 : W5 m ρ c (Proc.devRef .tc main_arg3) = aD m c := by
  rw [← w4_arg3 m ρ c]
  unwritten hostOps2

private theorem w5_v44 : W5 m ρ c (Proc.devRef .tc main_v44) = kZ (aX m c) (aE m c) (aWl1 m c) (aB1 m c) (aWr1 m c) (aWl2 m c) (aB2 m c) (aWr2 m c) := by
  rw [← w4_v44 m ρ c]
  unwritten hostOps2

/-! ### After the first call of the padding function

It copies the constant and pads the source queries with it: 704 zeros after the 200000 entries. -/

private theorem w6_v45 : W6 m ρ c (Proc.devRef .tc main_v45) = padQ (aS m c) := by
  show StableHlo.after hostOps2_1 (W5 m ρ c) (Proc.devRef .tc main_v45) = _
  generalize hV : W5 m ρ c = V
  after_results
  subst hV
  show pad S200704 ![0] ![704] ![0] (W5 m ρ c (Proc.devRef .tc main_arg2)) (id (W5 m ρ c (Proc.devRef .tc main_c_8)))
    pads_S200000_S200704_07040 h_S_ = _
  rw [w5_arg2, w5_c8]
  rfl

private theorem w6_arg3 : W6 m ρ c (Proc.devRef .tc main_arg3) = aD m c := by
  rw [← w5_arg3 m ρ c]
  unwritten hostOps2_1

private theorem w6_v44 : W6 m ρ c (Proc.devRef .tc main_v44) = kZ (aX m c) (aE m c) (aWl1 m c) (aB1 m c) (aWr1 m c) (aWl2 m c) (aB2 m c) (aWr2 m c) := by
  rw [← w5_v44 m ρ c]
  unwritten hostOps2_1

/-! ### After the second padding constant -/

private theorem w7_c9 : W7 m ρ c (Proc.devRef .tc main_c_9) = constantI S_ 32 0#32 := by
  show StableHlo.after hostOps2_2 (W6 m ρ c) (Proc.devRef .tc main_c_9) = _
  generalize W6 m ρ c = V
  after_results

private theorem w7_v45 : W7 m ρ c (Proc.devRef .tc main_v45) = padQ (aS m c) := by
  rw [← w6_v45 m ρ c]
  unwritten hostOps2_2

private theorem w7_arg3 : W7 m ρ c (Proc.devRef .tc main_arg3) = aD m c := by
  rw [← w6_arg3 m ρ c]
  unwritten hostOps2_2

private theorem w7_v44 : W7 m ρ c (Proc.devRef .tc main_v44) = kZ (aX m c) (aE m c) (aWl1 m c) (aB1 m c) (aWr1 m c) (aWl2 m c) (aB2 m c) (aWr2 m c) := by
  rw [← w6_v44 m ρ c]
  unwritten hostOps2_2

/-! ### After the second call of the padding function: the target queries padded likewise -/

private theorem w8_v46 : W8 m ρ c (Proc.devRef .tc main_v46) = padQ (aD m c) := by
  show StableHlo.after hostOps2_3 (W7 m ρ c) (Proc.devRef .tc main_v46) = _
  generalize hV : W7 m ρ c = V
  after_results
  subst hV
  show pad S200704 ![0] ![704] ![0] (W7 m ρ c (Proc.devRef .tc main_arg3)) (id (W7 m ρ c (Proc.devRef .tc main_c_9)))
    pads_S200000_S200704_07040 h_S_ = _
  rw [w7_arg3, w7_c9]
  rfl

private theorem w8_v45 : W8 m ρ c (Proc.devRef .tc main_v45) = padQ (aS m c) := by
  rw [← w7_v45 m ρ c]
  unwritten hostOps2_3

private theorem w8_v44 : W8 m ρ c (Proc.devRef .tc main_v44) = kZ (aX m c) (aE m c) (aWl1 m c) (aB1 m c) (aWr1 m c) (aWl2 m c) (aB2 m c) (aWr2 m c) := by
  rw [← w7_v44 m ρ c]
  unwritten hostOps2_3

/-! ### At region 2's entry

The last stretch before region 2 wraps each padded index once from the end and gathers the rows of the second layer's
output the wrapped indices name, for the sources and for the targets. -/

private theorem w9_v53 : W9 m ρ c (Proc.devRef .tc main_v53) = zGather (kZ (aX m c) (aE m c) (aWl1 m c) (aB1 m c) (aWr1 m c) (aWl2 m c) (aB2 m c) (aWr2 m c)) (aS m c) := by
  show StableHlo.after hostOps2_4 (W8 m ρ c) (Proc.devRef .tc main_v53) = _
  generalize hV : W8 m ρ c = V
  after_results_simp
  subst hV
  rw [w8_v44, w8_v45]
  rfl

private theorem w9_v60 : W9 m ρ c (Proc.devRef .tc main_v60) = zGather (kZ (aX m c) (aE m c) (aWl1 m c) (aB1 m c) (aWr1 m c) (aWl2 m c) (aB2 m c) (aWr2 m c)) (aD m c) := by
  show StableHlo.after hostOps2_4 (W8 m ρ c) (Proc.devRef .tc main_v60) = _
  generalize hV : W8 m ρ c = V
  after_results_simp
  subst hV
  rw [w8_v44, w8_v46]
  rfl

/-! ### Region 2's exit, and the cut back to the queries asked for

Region 2 leaves in its output array the scores of the two gathered arrays it found on entry; the last stretch keeps the
first 200000 of the 200704 scores and drops the unit axis. -/

private theorem w10_v61 : W10 m ρ c (Proc.devRef .tc main_v61)
    = Cert.Spec.decode (zGather (kZ (aX m c) (aE m c) (aWl1 m c) (aB1 m c) (aWr1 m c) (aWl2 m c) (aB2 m c) (aWr2 m c)) (aS m c)) (zGather (kZ (aX m c) (aE m c) (aWl1 m c) (aB1 m c) (aWr1 m c) (aWl2 m c) (aB2 m c) (aWr2 m c)) (aD m c)) := by
  rw [← w9_v53 m ρ c, ← w9_v60 m ρ c]
  exact (W10_arr m ρ c 2).trans (Cert.KernelIdeal.Region.reg2_arr (V9 (F := Ideal) m ρ) c)

/-- At the last boundary the result buffer is the program's result function of the arguments. -/
theorem w11_v63 : W11 m ρ c (Proc.devRef .tc main_v63)
    = kOut (aX m c) (aE m c) (aS m c) (aD m c) (aWl1 m c) (aB1 m c) (aWr1 m c) (aWl2 m c) (aB2 m c) (aWr2 m c) := by
  show StableHlo.after hostOps3 (W10 m ρ c) (Proc.devRef .tc main_v63) = _
  generalize hV : W10 m ρ c = V
  after_results
  subst hV
  rw [w10_v61]
  rfl

end Cert.KernelIdeal.Walk

end
-- ==== Proof.MathAgg.lean ====
/-
  The mean over incoming edges, two spellings. The kernel's program multiplies the scattered sum by the reciprocal of the
  in-degree (taken at least one, counted as a vector); the reference divides the scattered sum by the in-degree (taken at
  least one, counted as a column). The two counts are the same number at each node — both are the number of edges that
  enter it — and a divisor that is at least one is not zero, so the product with its reciprocal is the quotient on every
  extended real.
-/
import proofs.«157437_j90452011254251_1_alg».proof.Proof.KStages
import proofs.«157437_j90452011254251_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Agg

open Idealize.ShloMosaic Idealize.ShloMosaic.ValueIdx
open Cert.KernelIdeal.Stage

/-! ### Where an update of a scatter-add lands -/

/-- An update lands at `i` exactly when, on every axis, its start plus its window coordinate is `i`'s coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have hv := congrArg Fin.val h1
      simp only at hv
      have := (h a).1
      omega
    · intro hall
      congr 1
      funext a
      apply Fin.ext
      have := hall a
      have := (h a).1
      show (d.start j idx a + (d.window j a : Int)).toNat = (i a).val
      omega
  · rename_i h
    constructor
    · intro heq; cases heq
    · intro hall
      exfalso; apply h; intro a
      have := hall a
      have := (i a).isLt
      constructor <;> omega

/-- The kernel's count scatters a vector of ones onto a vector of nodes; the reference's scatters a column of ones onto a
    column of nodes, the column's one entry being a window of extent one. -/

private abbrev dK := Cert.KernelIdeal.scatter_S100000_S1600000x1_S1600000_n_0_0_1
private abbrev dR := Cert.ReferenceIdeal.scatter_S100000x1_S1600000x1_S1600000x1_1_0_0_1

private theorem siIdxK (m : Fin 1600000) (c : Fin dK.scatterDimsToOperandDims.length) :
    dK.siIdx (ix1 m) c = ix2 m (0 : Fin 1) := by
  funext b
  unfold ScatterDims.siIdx
  by_cases hb : b.val = dK.indexVectorDim
  · rw [dif_pos hb]
    have hb1 : b = (1 : Fin 2) := Fin.ext hb
    subst hb1
    apply Fin.ext
    have hc : c.val < 1 := c.isLt
    show c.val = 0
    omega
  · rw [dif_neg hb]
    have hb0 : b = (0 : Fin 2) := by
      apply Fin.ext
      have h1 : b.val ≠ 1 := hb
      have h2 : b.val < 2 := b.isLt
      show b.val = 0
      omega
    subst hb0
    apply Fin.ext
    unfold ScatterDims.siCoord
    exact congrArg (fun a => (ix1 m a).val) (Subsingleton.elim _ (0 : Fin 1))

private theorem startK {w : Nat} (m : Fin 1600000) (idx : IVec (⟨2, ![1600000, 1]⟩ : Shape) w) (a : Fin 1) :
    dK.start (ix1 m) idx a = (idx (ix2 m (0 : Fin 1))).toInt := by
  have ha : a = 0 := Subsingleton.elim _ _
  subst ha
  unfold ScatterDims.start
  rw [dif_pos (by decide), siIdxK]

private theorem windowK (m : Fin 1600000) (a : Fin 1) : dK.window (ix1 m) a = 0 := by
  have ha : a = 0 := Subsingleton.elim _ _
  subst ha
  unfold ScatterDims.window
  rw [dif_neg (by decide)]

private theorem landsK {w : Nat} (m : Fin 1600000) (idx : IVec (⟨2, ![1600000, 1]⟩ : Shape) w) (n : Fin 100000) :
    dK.resultIdx? (ix1 m) idx = some (ix1 n) ↔ (idx (ix2 m (0 : Fin 1))).toInt = (n.val : Int) := by
  rw [resultIdx?_eq_some_iff]
  constructor
  · intro h
    have := h (0 : Fin 1)
    rw [startK, windowK] at this
    simpa using this
  · intro h a
    rw [startK, windowK]
    have ha : a = 0 := Subsingleton.elim _ _
    subst ha
    simpa using h

private theorem getElem_of_eq_singleton {α : Type} (l : List α) (x : α) (hl : l = [x]) (k : Nat) (h : k < l.length) : l[k]'h = x := by
  subst hl
  have hk : k = 0 := by simpa using h
  subst hk
  rfl

private theorem siIdxR (m : Fin 1600000) (z : Fin 1) (c : Fin dR.scatterDimsToOperandDims.length) :
    dR.siIdx (ix2 m z) c = ix2 m (0 : Fin 1) := by
  funext b
  unfold ScatterDims.siIdx
  by_cases hb : b.val = dR.indexVectorDim
  · rw [dif_pos hb]
    have hb1 : b = (1 : Fin 2) := Fin.ext hb
    subst hb1
    apply Fin.ext
    have hc : c.val < 1 := c.isLt
    show c.val = 0
    omega
  · rw [dif_neg hb]
    have hb0 : b = (0 : Fin 2) := by
      apply Fin.ext
      have h1 : b.val ≠ 1 := hb
      have h2 : b.val < 2 := b.isLt
      show b.val = 0
      omega
    subst hb0
    apply Fin.ext
    unfold ScatterDims.siCoord
    exact congrArg (fun a => (ix2 m z a).val) (getElem_of_eq_singleton dR.uScatter (0 : Fin 2) (by decide) _ _)

private theorem startR0 {w : Nat} (m : Fin 1600000) (z : Fin 1) (idx : IVec (⟨2, ![1600000, 1]⟩ : Shape) w) :
    dR.start (ix2 m z) idx (0 : Fin 2) = (idx (ix2 m (0 : Fin 1))).toInt := by
  unfold ScatterDims.start
  rw [dif_pos (by decide), siIdxR]

private theorem startR1 {w : Nat} (m : Fin 1600000) (z : Fin 1) (idx : IVec (⟨2, ![1600000, 1]⟩ : Shape) w) :
    dR.start (ix2 m z) idx (1 : Fin 2) = 0 := by
  unfold ScatterDims.start
  rw [dif_neg (by decide)]

private theorem windowR0 (m : Fin 1600000) (z : Fin 1) : dR.window (ix2 m z) (0 : Fin 2) = 0 := by
  unfold ScatterDims.window
  rw [dif_neg (by decide)]

private theorem windowR1 (m : Fin 1600000) (z : Fin 1) : dR.window (ix2 m z) (1 : Fin 2) = 0 := by
  unfold ScatterDims.window
  rw [dif_pos (by decide)]
  have hz : z.val = 0 := by have := z.isLt; omega
  refine Eq.trans ?_ hz
  exact congrArg (fun a => (ix2 m z a).val) (getElem_of_eq_singleton dR.updateWindowDims (1 : Fin 2) (by decide) _ _)

private theorem landsR {w : Nat} (m : Fin 1600000) (z : Fin 1) (idx : IVec (⟨2, ![1600000, 1]⟩ : Shape) w) (n : Fin 100000) :
    dR.resultIdx? (ix2 m z) idx = some (ix2 n (0 : Fin 1)) ↔ (idx (ix2 m (0 : Fin 1))).toInt = (n.val : Int) := by
  rw [resultIdx?_eq_some_iff]
  constructor
  · intro h
    have := h (0 : Fin 2)
    rw [startR0, windowR0] at this
    simpa using this
  · intro h a
    by_cases ha : a = (0 : Fin 2)
    · subst ha
      rw [startR0, windowR0]
      simpa using h
    · have ha1 : a = (1 : Fin 2) := by
        apply Fin.ext
        have h0 : a.val ≠ 0 := fun hv => ha (Fin.ext hv)
        have h2 : a.val < 2 := a.isLt
        show a.val = 1
        omega
      subst ha1
      rw [startR1, windowR1]
      rfl

/-- With the same column of targets, operands that agree at the node and updates that agree edge by edge, the vector
    scatter-add at node `n` and the column scatter-add at `(n, 0)` are the same number: edge `j` of the one lands
    at `n` exactly when edge `(j, 0)` of the other lands at `(n, 0)`. -/
private theorem scatter_vec_eq_col {w : Nat} (idx : IVec (⟨2, ![1600000, 1]⟩ : Shape) w)
    (z1 : (⟨1, ![100000]⟩ : Shape).Idx → EReal) (z2 : (⟨2, ![100000, 1]⟩ : Shape).Idx → EReal)
    (u1 : (⟨1, ![1600000]⟩ : Shape).Idx → EReal) (u2 : (⟨2, ![1600000, 1]⟩ : Shape).Idx → EReal)
    (n : Fin 100000) (hz : z1 (ix1 n) = z2 (ix2 n (0 : Fin 1)))
    (hu : ∀ m : Fin 1600000, u1 (ix1 m) = u2 (ix2 m (0 : Fin 1))) :
    Host.scatterAdd (F := Ideal) (φ := .f32) dK z1 idx u1 (ix1 n) = Host.scatterAdd (F := Ideal) (φ := .f32) dR z2 idx u2 (ix2 n (0 : Fin 1)) := by
  show Ideal.hostScatterAdd dK z1 idx u1 (ix1 n) = Ideal.hostScatterAdd dR z2 idx u2 (ix2 n (0 : Fin 1))
  unfold Ideal.hostScatterAdd
  rw [hz]
  refine congrArg (z2 (ix2 n (0 : Fin 1)) + ·) ?_
  refine Finset.sum_nbij' (fun j => ix2 (j 0) (0 : Fin 1)) (fun k => ix1 (k 0)) ?_ ?_ ?_ ?_ ?_
  · intro j hj
    obtain ⟨m, rfl⟩ : ∃ m : Fin 1600000, j = ix1 m := ⟨j 0, eq_ix1 j⟩
    rw [Finset.mem_filter] at hj ⊢
    exact ⟨Finset.mem_univ _, (landsR m 0 idx n).2 ((landsK m idx n).1 hj.2)⟩
  · intro k hk
    obtain ⟨m, z, rfl⟩ : ∃ (m : Fin 1600000) (z : Fin 1), k = ix2 m z := ⟨k 0, k 1, eq_ix2 k⟩
    rw [Finset.mem_filter] at hk ⊢
    exact ⟨Finset.mem_univ _, (landsK m idx n).2 ((landsR m z idx n).1 hk.2)⟩
  · intro j _
    exact (eq_ix1 j).symm
  · intro k _
    obtain ⟨m, z, rfl⟩ : ∃ (m : Fin 1600000) (z : Fin 1), k = ix2 m z := ⟨k 0, k 1, eq_ix2 k⟩
    have hz : z = 0 := Subsingleton.elim _ _
    subst hz
    rfl
  · intro j _
    obtain ⟨m, rfl⟩ : ∃ m : Fin 1600000, j = ix1 m := ⟨j 0, eq_ix1 j⟩
    exact hu m

/-! ### Reading the broadcasts, the quotient and the literal one at an index -/

/-- A scalar broadcast to any shape is the scalar everywhere. -/
private theorem scalar_bcast_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b :=
  broadcastInDim_apply _ h _ j ix0 (fun a => a.elim0)

/-- A vector over the nodes read as a column: entry `(n, 0)` is entry `n`. -/
private theorem col_of_vec {α : Type} (h : (⟨1, ![100000]⟩ : Shape).BroadcastsInDim ⟨2, ![100000, 1]⟩ ![0])
    (Q : (⟨1, ![100000]⟩ : Shape).Idx → α) (n : Fin 100000) :
    broadcastInDim ⟨2, ![100000, 1]⟩ ![0] h Q (ix2 n (0 : Fin 1)) = Q (ix1 n) :=
  broadcastInDim_apply _ h Q _ _ (fun a => match a with
    | ⟨0, _⟩ => by show n.val = if (100000 : Nat) = 1 then 0 else n.val; rw [if_neg (by decide)])

/-- A column over the nodes repeated along each row: entry `(n, f)` is the column's entry `(n, 0)`. -/
private theorem row_of_col {α : Type} {W : Nat} (h : (⟨2, ![100000, 1]⟩ : Shape).BroadcastsInDim ⟨2, ![100000, W]⟩ ![0, 1])
    (C : (⟨2, ![100000, 1]⟩ : Shape).Idx → α) (n : Fin 100000) (f : Fin W) :
    broadcastInDim ⟨2, ![100000, W]⟩ ![0, 1] h C (ix2 n f) = C (ix2 n (0 : Fin 1)) :=
  broadcastInDim_apply _ h C _ _ (fun a => match a with
    | ⟨0, _⟩ => by show n.val = if (100000 : Nat) = 1 then 0 else n.val; rw [if_neg (by decide)]
    | ⟨1, _⟩ => by show (0 : Nat) = if (1 : Nat) = 1 then 0 else f.val; rw [if_pos rfl])

/-- The host's quotient of two arrays, entry by entry. -/
private theorem hostDivf_apply {s : Shape} (A B : FVec Ideal s .f32) (i : s.Idx) :
    Host.divf (F := Ideal) A B i = Ideal.div (A i) (B i) := rfl

/-- The pattern 0x3F800000 denotes one. -/
private theorem one_bits : Ideal.ofBits .f32 0x3F800000#32 = 1 := by
  simp [Ideal.ofBits, Ideal.ieee, -EReal.coe_mul]; norm_num

/-! ### The two counts, the two divisors -/

section
open Cert.ReferenceIdeal.Read

variable (e : IVec Cert.KernelIdeal.S2x1600000 32)

/-- The reference's column of targets is the kernel's. -/
private theorem v16_eq : val_main_v16 (F := Ideal) e = dstCol e := rfl

/-- The number of edges entering node `n`, counted as a vector entry and as a column entry. -/
private theorem cnt_eq (n : Fin 100000) :
    cnt e (ix1 n) = val_main_v17 (F := Ideal) e (ix2 n (0 : Fin 1)) := by
  unfold cnt val_main_v17
  rw [v16_eq]
  refine scatter_vec_eq_col (dstCol e) _ _ _ _ n ?_ ?_
  · rw [scalar_bcast_apply, val_main_v15_apply, val_main_cst_2_apply, Ideal.ofBits_def]
  · intro m
    rw [scalar_bcast_apply, val_main_v14_apply, val_main_cst_1_apply, Ideal.ofBits_def]

/-- The kernel's reciprocal column at node `n`: one over the in-degree taken at least one. -/
private theorem invCnt_apply (n : Fin 100000) :
    invCnt e (ix2 n (0 : Fin 1)) = Ideal.div 1 (max (val_main_v17 (F := Ideal) e (ix2 n (0 : Fin 1))) 1) := by
  unfold invCnt
  rw [col_of_vec, hostDivf_apply, maximumf_apply, scalar_bcast_apply, one_bits, cnt_eq]

/-- The reference's divisor column at node `n`: the in-degree taken at least one. -/
private theorem v19_at (n : Fin 100000) :
    val_main_v19 (F := Ideal) e (ix2 n (0 : Fin 1)) = max (val_main_v17 (F := Ideal) e (ix2 n (0 : Fin 1))) 1 := by
  rw [val_main_v19_apply, Ideal.maximumf_def, val_main_v18_apply, val_main_cst_3_apply, Ideal.ofBits_def, one_bits]

/-- Any array of rows over the nodes, times the reciprocal column repeated along the rows, is the array divided by the
    divisor column repeated along the rows, whenever the divisor column is the in-degree taken at least one. -/
private theorem mean_eq {W : Nat} (hb : (⟨2, ![100000, 1]⟩ : Shape).BroadcastsInDim ⟨2, ![100000, W]⟩ ![0, 1])
    (S : FVec Ideal ⟨2, ![100000, W]⟩ .f32) (C : FVec Ideal ⟨2, ![100000, 1]⟩ .f32)
    (hC : ∀ n : Fin 100000, C (ix2 n (0 : Fin 1)) = max (val_main_v17 (F := Ideal) e (ix2 n (0 : Fin 1))) 1) :
    mulf S (broadcastInDim ⟨2, ![100000, W]⟩ ![0, 1] hb (invCnt e)) =
      Host.divf (F := Ideal) S (broadcastInDim ⟨2, ![100000, W]⟩ ![0, 1] hb C) := by
  funext i
  obtain ⟨n, f, rfl⟩ : ∃ (n : Fin 100000) (f : Fin W), i = ix2 n f := ⟨i 0, i 1, eq_ix2 i⟩
  rw [mulf_apply, hostDivf_apply, row_of_col, row_of_col, invCnt_apply, hC]
  exact Cert.Spec.mul_one_div _ _ (Cert.Spec.max_one_ne_zero _)

/-- The second layer counts the same edges: its count column is the first layer's. -/
private theorem v44_eq : val_main_v44 (F := Ideal) e = val_main_v17 (F := Ideal) e := rfl

/-- The second layer's divisor column at node `n`. -/
private theorem v46_at (n : Fin 100000) :
    val_main_v46 (F := Ideal) e (ix2 n (0 : Fin 1)) = max (val_main_v17 (F := Ideal) e (ix2 n (0 : Fin 1))) 1 := by
  rw [val_main_v46_apply, Ideal.maximumf_def, val_main_v45_apply, val_main_cst_9_apply, Ideal.ofBits_def, one_bits, v44_eq]

/-- The same with the scattered sum named twice, once by each program. -/
private theorem mean_eq' {W : Nat} (hb hb' : (⟨2, ![100000, 1]⟩ : Shape).BroadcastsInDim ⟨2, ![100000, W]⟩ ![0, 1])
    (S S' : FVec Ideal ⟨2, ![100000, W]⟩ .f32) (C : FVec Ideal ⟨2, ![100000, 1]⟩ .f32) (hS : S' = S)
    (hC : ∀ n : Fin 100000, C (ix2 n (0 : Fin 1)) = max (val_main_v17 (F := Ideal) e (ix2 n (0 : Fin 1))) 1) :
    mulf S (broadcastInDim ⟨2, ![100000, W]⟩ ![0, 1] hb (invCnt e)) =
      Host.divf (F := Ideal) S' (broadcastInDim ⟨2, ![100000, W]⟩ ![0, 1] hb' C) := by
  subst hS
  exact mean_eq e hb S' C hC

end

end Cert.Bridge.Agg

namespace Cert.Bridge

open Idealize.ShloMosaic Idealize.ShloMosaic.ValueIdx
open Cert.KernelIdeal.Stage

-- The arrays are stated at the kernel program's shape names; the reference's are the same shapes.
variable (x : FVec Ideal Cert.KernelIdeal.S100000x128 .f32) (e : IVec Cert.KernelIdeal.S2x1600000 32)
  (s d : IVec Cert.KernelIdeal.S200000 32)
  (wl1 : FVec Ideal Cert.KernelIdeal.S64x128 .f32) (b1 : FVec Ideal Cert.KernelIdeal.S64 .f32) (wr1 : FVec Ideal Cert.KernelIdeal.S64x128 .f32)
  (wl2 : FVec Ideal Cert.KernelIdeal.S64x64 .f32) (b2 : FVec Ideal Cert.KernelIdeal.S64 .f32) (wr2 : FVec Ideal Cert.KernelIdeal.S64x64 .f32)

/-- The mean of the neighbours' rows of the features: the kernel's product with the reciprocal is the reference's quotient. -/
theorem agg128_eq : agg128 x e = Cert.ReferenceIdeal.Read.val_main_v21 (F := Ideal) x e := by
  unfold agg128 Cert.ReferenceIdeal.Read.val_main_v21 Cert.ReferenceIdeal.Read.val_main_v20
  exact Agg.mean_eq' e _ _ _ _ _ (by rfl) (Agg.v19_at e)

/-- The same at the first layer's output. -/
theorem agg64_eq : agg64 (Cert.ReferenceIdeal.Read.val_main_v30 (F := Ideal) x e wl1 b1 wr1) e = Cert.ReferenceIdeal.Read.val_main_v48 (F := Ideal) x e wl1 b1 wr1 := by
  unfold agg64 Cert.ReferenceIdeal.Read.val_main_v48 Cert.ReferenceIdeal.Read.val_main_v47
  exact Agg.mean_eq' e _ _ _ _ _ (by rfl) (Agg.v46_at e)

end Cert.Bridge

end
-- ==== Proof.MathLayer.lean ====
/-
  One layer after the aggregation, two spellings. The specification adds the two matrix products and then the bias row;
  the reference adds the bias to the neighbour path's product and then the root path's product. Addition of extended reals
  is commutative and associative, so the two agree at every entry, infinite ones included; the rectifier is the same
  maximum with zero on both sides.
-/
import proofs.«157437_j90452011254251_1_alg».proof.Proof.KStages
import proofs.«157437_j90452011254251_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx
open Cert.KernelIdeal.Stage

/-- A transposed 64×128 weight at (k, o) is the weight at (o, k). -/
private theorem wT128_at (w : FVec Ideal Cert.KernelIdeal.S64x128 .f32) (k : Fin 128) (o : Fin 64) :
    wT128 w (ix2 k o) = w (ix2 o k) := by
  unfold wT128
  exact transpose_apply [1, 0] w _ (ix2 k o) (ix2 o k) (fun b => match b with
    | ⟨0, _⟩ => rfl
    | ⟨1, _⟩ => rfl)

/-- A transposed 64×64 weight at (k, o) is the weight at (o, k). -/
private theorem wT64_at (w : FVec Ideal Cert.KernelIdeal.S64x64 .f32) (k : Fin 64) (o : Fin 64) :
    wT64 w (ix2 k o) = w (ix2 o k) := by
  unfold wT64
  exact transpose_apply [1, 0] w _ (ix2 k o) (ix2 o k) (fun b => match b with
    | ⟨0, _⟩ => rfl
    | ⟨1, _⟩ => rfl)

/-- The bias as a row, at column o, is the bias at o. -/
private theorem bRow_at (b : FVec Ideal Cert.KernelIdeal.S64 .f32) (o : Fin 64) :
    bRow b (ix2 (0 : Fin 1) o) = b (ix1 o) := by
  unfold bRow
  exact shapeCast_apply b _ (ix2 (0 : Fin 1) o) (ix1 o)
    (by rewrite [Shape.rowMajor_val_two, Shape.rowMajor_val_one]; show o.val = 0 * 64 + o.val; omega)

/-! The reference's index functions, as indices built from coordinates. -/

private theorem lidx23_eq (i : (⟨2, ![100000, 64]⟩ : Shape).Idx) (k : Fin 128) :
    Cert.ReferenceIdeal.Read.lidx_main_v23 i k = ix2 (Cert.Spec.c0 i) k :=
  funext fun a => match a with | ⟨0, _⟩ => rfl | ⟨1, _⟩ => rfl

private theorem lidx28_eq (i : (⟨2, ![100000, 64]⟩ : Shape).Idx) (k : Fin 128) :
    Cert.ReferenceIdeal.Read.lidx_main_v28 i k = ix2 (Cert.Spec.c0 i) k :=
  funext fun a => match a with | ⟨0, _⟩ => rfl | ⟨1, _⟩ => rfl

private theorem tidx22_eq (i : (⟨2, ![100000, 64]⟩ : Shape).Idx) (k : Fin 128) :
    Cert.ReferenceIdeal.Read.idx_main_v22 (Cert.ReferenceIdeal.Read.ridx_main_v23 i k) = ix2 (Cert.Spec.c1 i) k :=
  funext fun a => match a with | ⟨0, _⟩ => rfl | ⟨1, _⟩ => rfl

private theorem tidx27_eq (i : (⟨2, ![100000, 64]⟩ : Shape).Idx) (k : Fin 128) :
    Cert.ReferenceIdeal.Read.idx_main_v27 (Cert.ReferenceIdeal.Read.ridx_main_v28 i k) = ix2 (Cert.Spec.c1 i) k :=
  funext fun a => match a with | ⟨0, _⟩ => rfl | ⟨1, _⟩ => rfl

private theorem bidx1_eq (i : (⟨2, ![100000, 64]⟩ : Shape).Idx) :
    Cert.ReferenceIdeal.Read.idx_main_v24 (Cert.ReferenceIdeal.Read.idx_main_v25 i) = ix1 (Cert.Spec.c1 i) :=
  funext fun a => match a with | ⟨0, _⟩ => rfl

private theorem lidx50_eq (i : (⟨2, ![100000, 64]⟩ : Shape).Idx) (k : Fin 64) :
    Cert.ReferenceIdeal.Read.lidx_main_v50 i k = ix2 (Cert.Spec.c0 i) k :=
  funext fun a => match a with | ⟨0, _⟩ => rfl | ⟨1, _⟩ => rfl

private theorem lidx55_eq (i : (⟨2, ![100000, 64]⟩ : Shape).Idx) (k : Fin 64) :
    Cert.ReferenceIdeal.Read.lidx_main_v55 i k = ix2 (Cert.Spec.c0 i) k :=
  funext fun a => match a with | ⟨0, _⟩ => rfl | ⟨1, _⟩ => rfl

private theorem tidx49_eq (i : (⟨2, ![100000, 64]⟩ : Shape).Idx) (k : Fin 64) :
    Cert.ReferenceIdeal.Read.idx_main_v49 (Cert.ReferenceIdeal.Read.ridx_main_v50 i k) = ix2 (Cert.Spec.c1 i) k :=
  funext fun a => match a with | ⟨0, _⟩ => rfl | ⟨1, _⟩ => rfl

private theorem tidx54_eq (i : (⟨2, ![100000, 64]⟩ : Shape).Idx) (k : Fin 64) :
    Cert.ReferenceIdeal.Read.idx_main_v54 (Cert.ReferenceIdeal.Read.ridx_main_v55 i k) = ix2 (Cert.Spec.c1 i) k :=
  funext fun a => match a with | ⟨0, _⟩ => rfl | ⟨1, _⟩ => rfl

private theorem bidx2_eq (i : (⟨2, ![100000, 64]⟩ : Shape).Idx) :
    Cert.ReferenceIdeal.Read.idx_main_v51 (Cert.ReferenceIdeal.Read.idx_main_v52 i) = ix1 (Cert.Spec.c1 i) :=
  funext fun a => match a with | ⟨0, _⟩ => rfl

-- The arrays are stated at the kernel program's shape names; the reference's are the same shapes.
variable (x : FVec Ideal Cert.KernelIdeal.S100000x128 .f32) (e : IVec Cert.KernelIdeal.S2x1600000 32)
  (s d : IVec Cert.KernelIdeal.S200000 32)
  (wl1 : FVec Ideal Cert.KernelIdeal.S64x128 .f32) (b1 : FVec Ideal Cert.KernelIdeal.S64 .f32) (wr1 : FVec Ideal Cert.KernelIdeal.S64x128 .f32)
  (wl2 : FVec Ideal Cert.KernelIdeal.S64x64 .f32) (b2 : FVec Ideal Cert.KernelIdeal.S64 .f32) (wr2 : FVec Ideal Cert.KernelIdeal.S64x64 .f32)

/-- The first layer: the specification's function of the mean, the features, the transposed weights and the bias row is the
    reference's first layer. -/
theorem layer1_eq :
    Cert.Spec.layer (Cert.ReferenceIdeal.Read.val_main_v21 (F := Ideal) x e) x (wT128 wl1) (wT128 wr1) (bRow b1)
      = Cert.ReferenceIdeal.Read.val_main_v30 (F := Ideal) x e wl1 b1 wr1 := by
  funext i
  unfold Cert.Spec.layer
  rw [Cert.ReferenceIdeal.Read.val_main_v30_apply, Cert.ReferenceIdeal.Read.val_main_v29_apply,
    Cert.ReferenceIdeal.Read.val_main_v26_apply, Cert.ReferenceIdeal.Read.val_main_v23_apply,
    Cert.ReferenceIdeal.Read.val_main_v25_apply, Cert.ReferenceIdeal.Read.val_main_v24_apply,
    Cert.ReferenceIdeal.Read.val_main_v28_apply, Cert.ReferenceIdeal.Read.val_main_call0_v0_apply,
    Cert.ReferenceIdeal.Read.val_main_call0_cst_apply]
  simp only [Ideal.maximumf_def, Ideal.addf_def, Ideal.ofBits_def, Ideal.ofBits_zero_f32]
  -- the specification's (neighbours + root) + bias is the reference's (neighbours + bias) + root
  rw [add_right_comm]
  refine congrArg₂ max (congrArg₂ (· + ·) (congrArg₂ (· + ·)
    (Finset.sum_congr rfl fun k _ => ?_) ?_) (Finset.sum_congr rfl fun k _ => ?_)) rfl
  · -- the neighbour path's term k
    rw [wT128_at, Cert.ReferenceIdeal.Read.val_main_v22_apply, lidx23_eq, tidx22_eq]
  · -- the bias
    rw [bRow_at, bidx1_eq]
  · -- the root path's term k
    rw [wT128_at, Cert.ReferenceIdeal.Read.val_main_v27_apply, lidx28_eq, tidx27_eq]

/-- The second layer. -/
theorem layer2_eq :
    Cert.Spec.layer (Cert.ReferenceIdeal.Read.val_main_v48 (F := Ideal) x e wl1 b1 wr1) (Cert.ReferenceIdeal.Read.val_main_v30 (F := Ideal) x e wl1 b1 wr1)
        (wT64 wl2) (wT64 wr2) (bRow b2)
      = Cert.ReferenceIdeal.Read.val_main_v57 (F := Ideal) x e wl1 b1 wr1 wl2 b2 wr2 := by
  funext i
  unfold Cert.Spec.layer
  rw [Cert.ReferenceIdeal.Read.val_main_v57_apply, Cert.ReferenceIdeal.Read.val_main_v56_apply,
    Cert.ReferenceIdeal.Read.val_main_v53_apply, Cert.ReferenceIdeal.Read.val_main_v50_apply,
    Cert.ReferenceIdeal.Read.val_main_v52_apply, Cert.ReferenceIdeal.Read.val_main_v51_apply,
    Cert.ReferenceIdeal.Read.val_main_v55_apply, Cert.ReferenceIdeal.Read.val_main_call1_v0_apply,
    Cert.ReferenceIdeal.Read.val_main_call1_cst_apply]
  simp only [Ideal.maximumf_def, Ideal.addf_def, Ideal.ofBits_def, Ideal.ofBits_zero_f32]
  -- again (neighbours + root) + bias against (neighbours + bias) + root
  rw [add_right_comm]
  refine congrArg₂ max (congrArg₂ (· + ·) (congrArg₂ (· + ·)
    (Finset.sum_congr rfl fun k _ => ?_) ?_) (Finset.sum_congr rfl fun k _ => ?_)) rfl
  · -- the neighbour path's term k
    rw [wT64_at, Cert.ReferenceIdeal.Read.val_main_v49_apply, lidx50_eq, tidx49_eq]
  · -- the bias
    rw [bRow_at, bidx2_eq]
  · -- the root path's term k
    rw [wT64_at, Cert.ReferenceIdeal.Read.val_main_v54_apply, lidx55_eq, tidx54_eq]

end Cert.Bridge

end
-- ==== Proof.MathDecode.lean ====
/-
  The link scores, two spellings. The kernel's program pads the query indices with zeros to whole blocks, gathers, scores
  every padded row and cuts the first 200000 scores out; the reference gathers and scores the 200000 queries. A query
  below 200000 reads the same row either way (the padding lies behind it), the inner product is the same sum, and the
  logistic function is, by its definition on the extended reals, one over one plus the exponential of the negation.
-/
import proofs.«157437_j90452011254251_1_alg».proof.Proof.KStages
import proofs.«157437_j90452011254251_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Stage

/-! ## A row gather read at an index

The start indices are a column, one per query; the operand is a table of rows. Axis 0 of the table is collapsed and is the
one the start index addresses; axis 1 is the offset axis, a whole row wide. So result element (q, k) is the table's
element in column k of the row the start index at (q, 0) names, that index read as a signed integer and clamped into the
table's rows. -/

section RowGather
variable {α : Type}

/-- The dimension numbers of a gather of whole rows: operand `[N, D]`, start indices `[Q, 1]`, result `[Q, D]`. -/
private abbrev rowDims (N D Q : Nat)
    (wf : GatherDims.WF ⟨2, ![N, D]⟩ ⟨2, ![Q, 1]⟩ ⟨2, ![Q, D]⟩ [1] [0] [] [0] [] 1 ![1, D]) :
    GatherDims ⟨2, ![N, D]⟩ ⟨2, ![Q, 1]⟩ ⟨2, ![Q, D]⟩ where
  offsetDims := [1]
  collapsedSliceDims := [0]
  operandBatchingDims := []
  startIndicesBatchingDims := []
  startIndexMap := [0]
  indexVectorDim := 1
  sliceSizes := ![1, D]
  wf := wf

/-- The row read: the start index at `(q, 0)`, signed, clamped to the last row. No batching and no offset on this axis. -/
private theorem rowDims_row {N D Q w : Nat}
    (wf : GatherDims.WF ⟨2, ![N, D]⟩ ⟨2, ![Q, 1]⟩ ⟨2, ![Q, D]⟩ [1] [0] [] [0] [] 1 ![1, D])
    (idx : IVec ⟨2, ![Q, 1]⟩ w) (j : (⟨2, ![Q, D]⟩ : Shape).Idx) :
    ((rowDims N D Q wf).operandIdx j idx 0).val
      = min (idx (ix2 ⟨(j 0).val, idx2_lt0 j⟩ (0 : Fin 1))).toInt.toNat (N - 1) := by
  show (rowDims N D Q wf).start j idx 0 + (rowDims N D Q wf).batchCoord j 0 + (rowDims N D Q wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D Q wf).startIndexMap from List.mem_singleton.mpr rfl)]
  have hsi : (rowDims N D Q wf).siIdx j ⟨List.idxOf (0 : Fin 2) (rowDims N D Q wf).startIndexMap,
      List.idxOf_lt_length_iff.2 (List.mem_singleton.mpr rfl)⟩ = ix2 ⟨(j 0).val, idx2_lt0 j⟩ (0 : Fin 1) := by
    funext b; refine Fin.ext ?_
    match b with
    | ⟨0, _⟩ => rfl
    | ⟨1, _⟩ => rfl
  rw [hsi]
  rfl

/-- The column read: the result's own column. The start index does not address this axis. -/
private theorem rowDims_col {N D Q w : Nat}
    (wf : GatherDims.WF ⟨2, ![N, D]⟩ ⟨2, ![Q, 1]⟩ ⟨2, ![Q, D]⟩ [1] [0] [] [0] [] 1 ![1, D])
    (idx : IVec ⟨2, ![Q, 1]⟩ w) (j : (⟨2, ![Q, D]⟩ : Shape).Idx) :
    ((rowDims N D Q wf).operandIdx j idx 1).val = (j 1).val := by
  show (rowDims N D Q wf).start j idx 1 + (rowDims N D Q wf).batchCoord j 1 + (rowDims N D Q wf).offCoord j 1 = _
  rw [GatherDims.batchCoord_eq_zero _ _ _ List.not_mem_nil]
  unfold GatherDims.start
  rw [dif_neg (show ¬ (1 : Fin 2) ∈ (rowDims N D Q wf).startIndexMap from (by decide : ¬ (1 : Fin 2) ∈ ([0] : List (Fin 2))))]
  unfold GatherDims.offCoord
  rw [dif_pos ((GatherDims.mem_sKept _ _).2 ⟨(by decide : ¬ (1 : Fin 2) ∈ ([0] : List (Fin 2))), List.not_mem_nil⟩ :
    (1 : Fin 2) ∈ (rowDims N D Q wf).sKept)]
  simp only [Nat.zero_add]
  rfl

/-- The gather of rows at `(q, k)`: column `k` of the row the start index at `(q, 0)` names. -/
private theorem gather_rows_apply {N D Q w : Nat} (hN : 0 < N)
    (wf : GatherDims.WF ⟨2, ![N, D]⟩ ⟨2, ![Q, 1]⟩ ⟨2, ![Q, D]⟩ [1] [0] [] [0] [] 1 ![1, D])
    (x : (⟨2, ![N, D]⟩ : Shape).Idx → α) (idx : IVec ⟨2, ![Q, 1]⟩ w) (q : Fin Q) (k : Fin D) :
    Host.gather (rowDims N D Q wf) x idx (ix2 q k)
      = x (ix2 (⟨min (idx (ix2 q (0 : Fin 1))).toInt.toNat (N - 1), by omega⟩ : Fin N) k) := by
  unfold Host.gather
  refine congrArg x (funext fun a => Fin.ext ?_)
  match a with
  | ⟨0, _⟩ => exact rowDims_row wf idx (ix2 q k)
  | ⟨1, _⟩ => exact rowDims_col wf idx (ix2 q k)

end RowGather

/-! ## The start indices -/

/-- A negative node number counts from the end, once. -/
private def wrapIdx (v : BitVec 32) : BitVec 32 :=
  Scalar.select (IntOp.cmpi .slt v 0#32) (IntOp.addi v 100000#32) v

/-- The row of the 100000-row table a start index names: read signed, clamped. -/
private def rowOf (v : BitVec 32) : Fin 100000 := ⟨min v.toInt.toNat 99999, by omega⟩

/-- Both programs' records are the row gather's. -/
private theorem kernel_gather_apply (z : FVec Ideal Cert.KernelIdeal.S100000x64 .f32) (idx : IVec Cert.KernelIdeal.S200704x1 32)
    (q : Fin 200704) (k : Fin 64) :
    Host.gather Cert.KernelIdeal.gather_S100000x64_S200704x1_S200704x64_1_0_n_n_0_1_164 z idx (ix2 q k)
      = z (ix2 (rowOf (idx (ix2 q (0 : Fin 1)))) k) :=
  gather_rows_apply (N := 100000) (D := 64) (Q := 200704) (by decide)
    Cert.KernelIdeal.gather_S100000x64_S200704x1_S200704x64_1_0_n_n_0_1_164.wf z idx q k

private theorem reference_gather_apply (z : FVec Ideal Cert.KernelIdeal.S100000x64 .f32) (idx : IVec Cert.KernelIdeal.S200000x1 32)
    (q : Fin 200000) (k : Fin 64) :
    Host.gather Cert.ReferenceIdeal.gather_S100000x64_S200000x1_S200000x64_1_0_n_n_0_1_164 z idx (ix2 q k)
      = z (ix2 (rowOf (idx (ix2 q (0 : Fin 1)))) k) :=
  gather_rows_apply (N := 100000) (D := 64) (Q := 200000) (by decide)
    Cert.ReferenceIdeal.gather_S100000x64_S200000x1_S200000x64_1_0_n_n_0_1_164.wf z idx q k

/-- The padding lies behind the queries: below 200000 the padded indices are the indices. -/
private theorem padQ_apply (s : IVec Cert.KernelIdeal.S200000 32) (r : Fin 200000) :
    padQ s (ix1 (⟨r.val, by omega⟩ : Fin 200704)) = s (ix1 r) := by
  unfold padQ pad
  split
  · refine congrArg s (funext fun a => Fin.ext ?_)
    match a with
    | ⟨0, _⟩ => show (r.val - 0) / (0 + 1) = r.val; simp
  · rename_i hin
    refine absurd (fun a => ?_) hin
    match a with
    | ⟨0, _⟩ =>
      exact ⟨Nat.zero_le _, by show (r.val - 0) % (0 + 1) = 0; exact Nat.mod_one _, by show (r.val - 0) / (0 + 1) < 200000; simpa using r.isLt⟩

/-- The kernel's column of start indices at `(q, 0)`: the wrap of the padded index at `q`. -/
private theorem wrapQ_apply (v : IVec Cert.KernelIdeal.S200704 32) (q : Fin 200704) :
    wrapQ v (ix2 q (0 : Fin 1)) = wrapIdx (v (ix1 q)) := by
  unfold wrapQ
  refine (broadcastInDim_apply _ _ _ (ix2 q (0 : Fin 1)) (ix1 q) (fun a => match a with
    | ⟨0, _⟩ => by show q.val = if (200704 : Nat) = 1 then 0 else q.val; rw [if_neg (by decide)])).trans ?_
  rfl

/-- The rows the kernel gathers for a query asked for. -/
private theorem zGather_apply (z : FVec Ideal Cert.KernelIdeal.S100000x64 .f32) (s : IVec Cert.KernelIdeal.S200000 32)
    (r : Fin 200000) (k : Fin 64) :
    zGather z s (ix2 (⟨r.val, by omega⟩ : Fin 200704) k) = z (ix2 (rowOf (wrapIdx (s (ix1 r)))) k) := by
  unfold zGather
  rw [kernel_gather_apply, wrapQ_apply, padQ_apply]

/-! ## The scores -/

/-- The cut at a query: row `r` of the padded column of scores. -/
private theorem outOf_apply (o : FVec Ideal Cert.KernelIdeal.S200704x1 .f32) (r : Fin 200000) :
    outOf o (ix1 r) = o (ix2 (⟨r.val, by omega⟩ : Fin 200704) (0 : Fin 1)) := by
  unfold outOf
  refine (shapeCast_apply _ _ (ix1 r) (ix2 r (0 : Fin 1)) ?_).trans ?_
  · rw [Shape.rowMajor_val_two, Shape.rowMajor_val_one]
    show r.val * 1 + 0 = r.val
    omega
  · exact extractStridedSlice_apply _ o _ (ix2 r (0 : Fin 1)) (ix2 (⟨r.val, by omega⟩ : Fin 200704) (0 : Fin 1))
      (fun a => match a with
        | ⟨0, _⟩ => by show r.val = 0 + r.val; omega
        | ⟨1, _⟩ => by show 0 = 0 + 0; rfl)

/-- The specification's score of row `a`: the logistic function of the inner product of the two rows. -/
private theorem decode_apply {Q D : Nat} (zs zd : (⟨2, ![Q, D]⟩ : Shape).Idx → EReal) (a : Fin Q) :
    Cert.Spec.decode zs zd (ix2 a (0 : Fin 1)) = Ideal.logistic (∑ k : Fin D, zs (ix2 a k) * zd (ix2 a k)) := rfl

/-- The reference's first column of start indices at `(q, 0)`: the wrap of the index at `q`. -/
private theorem ref63_apply (s : IVec Cert.KernelIdeal.S200000 32) (r : Fin 200000) :
    Cert.ReferenceIdeal.Read.val_main_v63 (F := Ideal) s (ix2 r (0 : Fin 1)) = wrapIdx (s (ix1 r)) := by
  have hi : Cert.ReferenceIdeal.Read.idx_main_v63 (ix2 r (0 : Fin 1)) = ix1 r := by
    funext a; match a with | ⟨0, _⟩ => rfl
  rw [Cert.ReferenceIdeal.Read.val_main_v63_apply, hi, Cert.ReferenceIdeal.Read.val_main_v62_apply,
    Cert.ReferenceIdeal.Read.val_main_v59_apply, Cert.ReferenceIdeal.Read.val_main_v58_apply,
    Cert.ReferenceIdeal.Read.val_main_c_10_apply, Cert.ReferenceIdeal.Read.val_main_v61_apply,
    Cert.ReferenceIdeal.Read.val_main_v60_apply, Cert.ReferenceIdeal.Read.val_main_c_11_apply]
  rfl

/-- The reference's second column of start indices, the same way. -/
private theorem ref70_apply (d : IVec Cert.KernelIdeal.S200000 32) (r : Fin 200000) :
    Cert.ReferenceIdeal.Read.val_main_v70 (F := Ideal) d (ix2 r (0 : Fin 1)) = wrapIdx (d (ix1 r)) := by
  have hi : Cert.ReferenceIdeal.Read.idx_main_v70 (ix2 r (0 : Fin 1)) = ix1 r := by
    funext a; match a with | ⟨0, _⟩ => rfl
  rw [Cert.ReferenceIdeal.Read.val_main_v70_apply, hi, Cert.ReferenceIdeal.Read.val_main_v69_apply,
    Cert.ReferenceIdeal.Read.val_main_v66_apply, Cert.ReferenceIdeal.Read.val_main_v65_apply,
    Cert.ReferenceIdeal.Read.val_main_c_12_apply, Cert.ReferenceIdeal.Read.val_main_v68_apply,
    Cert.ReferenceIdeal.Read.val_main_v67_apply, Cert.ReferenceIdeal.Read.val_main_c_13_apply]
  rfl

-- The arrays are stated at the kernel program's shape names; the reference's are the same shapes.
variable (x : FVec Ideal Cert.KernelIdeal.S100000x128 .f32) (e : IVec Cert.KernelIdeal.S2x1600000 32)
  (s d : IVec Cert.KernelIdeal.S200000 32)
  (wl1 : FVec Ideal Cert.KernelIdeal.S64x128 .f32) (b1 : FVec Ideal Cert.KernelIdeal.S64 .f32) (wr1 : FVec Ideal Cert.KernelIdeal.S64x128 .f32)
  (wl2 : FVec Ideal Cert.KernelIdeal.S64x64 .f32) (b2 : FVec Ideal Cert.KernelIdeal.S64 .f32) (wr2 : FVec Ideal Cert.KernelIdeal.S64x64 .f32)

/-- The scores of the queries asked for: the kernel's padded gather, score and cut is the reference's gather and score. -/
theorem decode_eq :
    outOf (Cert.Spec.decode (zGather (Cert.ReferenceIdeal.Read.val_main_v57 (F := Ideal) x e wl1 b1 wr1 wl2 b2 wr2) s)
        (zGather (Cert.ReferenceIdeal.Read.val_main_v57 (F := Ideal) x e wl1 b1 wr1 wl2 b2 wr2) d))
      = Cert.ReferenceIdeal.Read.val_main_v79 (F := Ideal) x e s d wl1 b1 wr1 wl2 b2 wr2 := by
  funext q
  have hq : q = ix1 (⟨(q 0).val, (q 0).isLt⟩ : Fin 200000) := by
    funext a; match a with | ⟨0, _⟩ => rfl
  generalize (⟨(q 0).val, (q 0).isLt⟩ : Fin 200000) = r at hq
  subst hq
  rw [outOf_apply, decode_apply]
  rw [Cert.ReferenceIdeal.Read.val_main_v79_apply, Cert.ReferenceIdeal.Read.val_main_v78_apply,
    Cert.ReferenceIdeal.Read.val_main_cst_16_apply, Cert.ReferenceIdeal.Read.val_main_v77_apply,
    Cert.ReferenceIdeal.Read.val_main_v76_apply, Cert.ReferenceIdeal.Read.val_main_cst_15_apply,
    Cert.ReferenceIdeal.Read.val_main_v75_apply, Cert.ReferenceIdeal.Read.val_main_v74_apply,
    Cert.ReferenceIdeal.Read.val_main_v73_apply, Cert.ReferenceIdeal.Read.val_main_cst_14_apply]
  simp only [Ideal.hostDivf_def, Ideal.addf_def, Ideal.hostUnary_exp_def, Ideal.hostNegf_def, Ideal.negf_def,
    Ideal.ofBits_def, Ideal.ofBits_one_f32, Ideal.ofBits_zero_f32, zero_add]
  rw [Ideal.logistic]
  refine congrArg (fun t => Ideal.div 1 (1 + Ideal.exp (-t))) (Finset.sum_congr rfl fun k _ => ?_)
  have hi : Cert.ReferenceIdeal.Read.idx_main_v73 (ix1 r) k = ix2 r k := by
    funext a; match a with | ⟨0, _⟩ => rfl | ⟨1, _⟩ => rfl
  rw [hi, Cert.ReferenceIdeal.Read.val_main_v72_apply]
  unfold Cert.ReferenceIdeal.Read.val_main_v64 Cert.ReferenceIdeal.Read.val_main_v71
  generalize Cert.ReferenceIdeal.Read.val_main_v57 (F := Ideal) x e wl1 b1 wr1 wl2 b2 wr2 = z
  rw [zGather_apply, zGather_apply, reference_gather_apply, reference_gather_apply, ref63_apply, ref70_apply]
  rfl

end Cert.Bridge

end
-- ==== Proof.Bridge.lean ====
/-
  The kernel's result function is the reference's: stage by stage the mean of the neighbours' rows, the layer, the mean
  again, the second layer and the scores agree, so the composition does.
-/
import proofs.«157437_j90452011254251_1_alg».proof.Proof.MathAgg
import proofs.«157437_j90452011254251_1_alg».proof.Proof.MathLayer
import proofs.«157437_j90452011254251_1_alg».proof.Proof.MathDecode

noncomputable section

namespace Cert.Bridge

open Idealize.ShloMosaic
open Cert.KernelIdeal.Stage

variable (x : FVec Ideal Cert.KernelIdeal.S100000x128 .f32) (e : IVec Cert.KernelIdeal.S2x1600000 32)
  (s d : IVec Cert.KernelIdeal.S200000 32)
  (wl1 : FVec Ideal Cert.KernelIdeal.S64x128 .f32) (b1 : FVec Ideal Cert.KernelIdeal.S64 .f32) (wr1 : FVec Ideal Cert.KernelIdeal.S64x128 .f32)
  (wl2 : FVec Ideal Cert.KernelIdeal.S64x64 .f32) (b2 : FVec Ideal Cert.KernelIdeal.S64 .f32) (wr2 : FVec Ideal Cert.KernelIdeal.S64x64 .f32)

/-- The first layer's output, both ways. -/
theorem kH_eq : kH x e wl1 b1 wr1 = Cert.ReferenceIdeal.Read.val_main_v30 (F := Ideal) x e wl1 b1 wr1 := by
  unfold kH
  rw [agg128_eq]
  exact layer1_eq x e wl1 b1 wr1

/-- The second layer's output, both ways. -/
theorem kZ_eq : kZ x e wl1 b1 wr1 wl2 b2 wr2 = Cert.ReferenceIdeal.Read.val_main_v57 (F := Ideal) x e wl1 b1 wr1 wl2 b2 wr2 := by
  unfold kZ
  rw [kH_eq, agg64_eq]
  exact layer2_eq x e wl1 b1 wr1 wl2 b2 wr2

/-- The result, both ways. -/
theorem kOut_eq : kOut x e s d wl1 b1 wr1 wl2 b2 wr2 = Cert.ReferenceIdeal.Read.val_main_v79 (F := Ideal) x e s d wl1 b1 wr1 wl2 b2 wr2 := by
  unfold kOut
  rw [kZ_eq]
  exact decode_eq x e s d wl1 b1 wr1 wl2 b2 wr2

end Cert.Bridge

end
-- ==== Proof.lean ====
/-
  A two-layer mean-aggregation graph network with a link decoder, as three tiled kernels among host gathers and
  scatter-adds, against its plain array reference, over the extended reals.

  Both programs compute, for each query (s, d), the logistic function of the inner product of rows s and d of z, where
  h = relu(mean_x · Wl1ᵀ + x · Wr1ᵀ + bl1), z = relu(mean_h · Wl2ᵀ + h · Wr2ᵀ + bl2) and mean_y averages the rows of y over
  each node's incoming edges (a node with none counts as one).

  They differ in four ways, none of which changes a value: the kernel multiplies by the reciprocal of the in-degree where
  the reference divides by it (the divisor is at least one, so not zero); it counts the in-degree as a vector where the
  reference counts a column (the same number); it adds the bias last where the reference adds it between the two
  products (addition of extended reals is commutative and associative); and it pads the queries to whole blocks, scores
  all of them and cuts the padding off (a query asked for lies before the padding). Matrix products by row blocks and
  the logistic operation are, at exact arithmetic, the whole products and one over one plus the exponential of the negation.

  The frames of the two kernel programs are the generated ones; the reference's frame and value are its generated run. The
  kernel program's value is read off its run: the launch names the result buffer at the last boundary's contents
  (Proof/KLaunch.lean), which the walk modules trace back through the three regions to a function of the arguments
  (Proof/KWalk0–2.lean over Proof/KRegion0–2.lean), and that function is the reference's (Proof/Bridge.lean).
-/
import proofs.«157437_j90452011254251_1_alg».proof.Defs
import proofs.«157437_j90452011254251_1_alg».proof.Proof.Gen.Kernel
import proofs.«157437_j90452011254251_1_alg».proof.Proof.Gen.Kernel.Frame
import proofs.«157437_j90452011254251_1_alg».proof.Proof.Gen.KernelIdeal
import proofs.«157437_j90452011254251_1_alg».proof.Proof.Gen.KernelIdeal.Frame
import proofs.«157437_j90452011254251_1_alg».proof.Proof.Gen.ReferenceIdeal
import proofs.«157437_j90452011254251_1_alg».proof.Proof.Gen.ReferenceIdeal.Run
import proofs.«157437_j90452011254251_1_alg».proof.Proof.Gen.ReferenceIdeal.Read
import proofs.«157437_j90452011254251_1_alg».proof.Proof.Gen.Pre_finite_inputs
import proofs.«157437_j90452011254251_1_alg».proof.Proof.KLaunch
import proofs.«157437_j90452011254251_1_alg».proof.Proof.KWalk2
import proofs.«157437_j90452011254251_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_k : Cert.frame_Kernel := fun m ρ _ => Cert.Kernel.Gen.frame m ρ

/-- The idealized kernel program runs and keeps its arguments: its generated frame. -/
theorem frame_ki : Cert.frame_KernelIdeal := fun m ρ _ => Cert.KernelIdeal.Gen.frame m ρ

/-- The reference runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same scores: the kernel program's result buffer
    is its result function of the arguments, the reference's is its last stage of the same arguments, and the two
    functions are one. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v63),
    Cert.KernelIdeal.Launch.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v79 m' c
    = Cert.KernelIdeal.Gen.W11 (F := Ideal) m ρ c (Proc.devRef .tc Cert.KernelIdeal.main_v63)
  rw [Cert.ReferenceIdeal.Read.val_main_v79_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2, Cert.KernelIdeal.Walk.w11_v63 m ρ c]
  exact (Cert.Bridge.kOut_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
